-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "pos_big" .f32 0x7149F2CA#32 ⊤
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S21x512 : Shape := ⟨2, ![21, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S21x512 : S_.BroadcastsInDim S21x512 (![] : Fin 0 → Fin S21x512.rank)
  reducesTo_S21x512_S_d0_1 : S21x512.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x512 .f32) (main_arg1 : FVec F S21x512 .f32) (main_arg2 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S21x512 .f32 := Host.absf main_arg1
  let main_cst_0 : FVec F S_ .f32 := constant S_ .f32 0x7F800000#32
  let main_v5 : FVec F S21x512 .f32 := broadcastInDim S21x512 ![] bcast_S_S21x512 main_cst_0
  let main_v6 : IVec S21x512 1 := cmpf .olt main_v4 main_v5
  let main_c_1 : IVec S_ 1 := constantI S_ 1 1#1
  let main_v7 : IVec S_ 1 := (fun x v => Host.reduce IntOp.andi x v reducesTo_S21x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 32 := constantI S_ 32 21#32
  let main_v11 : IVec S65536 32 := broadcastInDim S65536 ![] bcast_S_S65536 main_c_3
  let main_v12 : IVec S65536 1 := cmpi .slt main_arg2 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536x512 : Shape := ⟨2, ![65536, 512]⟩
abbrev S21x512 : Shape := ⟨2, ![21, 512]⟩
abbrev S65536 : Shape := ⟨1, ![65536]⟩
abbrev S65536x1 : Shape := ⟨2, ![65536, 1]⟩
abbrev S_ : Shape := ⟨0, ![]⟩
abbrev S128x512 : Shape := ⟨2, ![128, 512]⟩
abbrev S512x128 : Shape := ⟨2, ![512, 128]⟩
abbrev S21 : Shape := ⟨1, ![21]⟩
abbrev S128 : Shape := ⟨1, ![128]⟩
abbrev S1x128 : Shape := ⟨2, ![1, 128]⟩
abbrev S16x128 : Shape := ⟨2, ![16, 128]⟩
abbrev S2048x512 : Shape := ⟨2, ![2048, 512]⟩
abbrev S2048x1 : Shape := ⟨2, ![2048, 1]⟩
abbrev S8x128 : Shape := ⟨2, ![8, 128]⟩
abbrev S2048 : Shape := ⟨1, ![2048]⟩
abbrev S2048x128 : Shape := ⟨2, ![2048, 128]⟩
abbrev S1 : Shape := ⟨1, ![1]⟩
abbrev S1x1 : Shape := ⟨2, ![1, 1]⟩

abbrev nBuf : Space → Nat
  | .hbm => 21
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S21x512, .f32⟩
  | .hbm, ⟨2, _⟩ => ⟨S65536, .i32⟩
  | .hbm, ⟨3, _⟩ => ⟨S65536x1, .i32⟩
  | .hbm, ⟨4, _⟩ => ⟨S_, .i32⟩
  | .hbm, ⟨5, _⟩ => ⟨S_, .f32⟩
  | .hbm, ⟨6, _⟩ => ⟨S128x512, .f32⟩
  | .hbm, ⟨7, _⟩ => ⟨S128x512, .bf16⟩
  | .hbm, ⟨8, _⟩ => ⟨S512x128, .bf16⟩
  | .hbm, ⟨9, _⟩ => ⟨S21x512, .f32⟩
  | .hbm, ⟨10, _⟩ => ⟨S_, .f32⟩
  | .hbm, ⟨11, _⟩ => ⟨S21, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S16x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S512x128, .bf16⟩
  | .local _ .vmem, ⟨3, _⟩ => ⟨S1x128, .f32⟩
  | .local _ .vmem, ⟨4, _⟩ => ⟨S2048x1, .i32⟩
  | .local _ .vmem, ⟨5, _⟩ => ⟨S2048x1, .i32⟩
  | .local _ .vmem, ⟨6, _⟩ => ⟨S8x128, .f32⟩
  | .local _ .vmem, ⟨7, _⟩ => ⟨S8x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S65536_S65536x1 : S65536.ShapeCasts S65536x1
  pads_S21x512_S128x512_01070_000 : S21x512.Pads (![0, 0] : Fin 2 → Nat) ![107, 0] ![0, 0] S128x512
  h_S_ : 0 < S_.numel
  bitsLt_bf16_f32 : FTy.bits .bf16 < FTy.bits .f32
  transposes_S128x512_S512x128_1_0 : S128x512.Transposes [1, 0] S512x128
  reducesTo_S21x512_S21_d1 : S21x512.ReducesTo [1] S21
  pads_S21_S128_01070 : S21.Pads (![0] : Fin 1 → Nat) ![107] ![0] S128
  shapeCasts_S128_S1x128 : S128.ShapeCasts S1x128
  inb_S8x128_S8x128_0_0 : ∀ a, (![0, 0] : Fin 2 → Nat) a + S8x128.size a ≤ S8x128.size a
  h_S8x128 : 0 < S8x128.numel
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x512_S2048 : S2048x512.Reduces [1] S2048
  shapeCasts_S2048_S2048x1 : S2048.ShapeCasts S2048x1
  broadcasts_S2048x1_S2048x128 : S2048x1.Broadcasts S2048x128
  broadcasts_S1x128_S2048x128 : S1x128.Broadcasts S2048x128
  iota_S2048x128_d1_w32 : S2048x128.Iotas .tc 32 [1]
  reduces_S2048x128_S2048 : S2048x128.Reduces [1] S2048
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  natLt_1_32 : 1 < 32
  shapeCasts_S8x128_S8x128 : S8x128.ShapeCasts S8x128
  reducesTo_S16x128_S_d0_1 : S16x128.ReducesTo [0, 1] S_
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S65536x1.size a
  hwx0_3 : ∀ i : grid0.Coords, EltTy.bits .i32 = 32 ∨ (Rect.block (s := S65536x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S21x512 : Shape := ⟨2, ![21, 512]⟩
abbrev S65536 : Shape := ⟨1, ![65536]⟩
abbrev S_ : Shape := ⟨0, ![]⟩
abbrev S65536x1 : Shape := ⟨2, ![65536, 1]⟩
abbrev S21 : Shape := ⟨1, ![21]⟩
abbrev S1x21 : Shape := ⟨2, ![1, 21]⟩
abbrev S65536x21 : Shape := ⟨2, ![65536, 21]⟩
abbrev S512x21 : Shape := ⟨2, ![512, 21]⟩
abbrev S65536x2 : Shape := ⟨2, ![65536, 2]⟩

abbrev nBuf : Space → Nat
  | .hbm => 65
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S21x512, .f32⟩
  | .hbm, ⟨2, _⟩ => ⟨S65536, .i32⟩
  | .hbm, ⟨3, _⟩ => ⟨S65536x512, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S21x512, .f32⟩
  | .hbm, ⟨8, _⟩ => ⟨S_, .f32⟩
  | .hbm, ⟨9, _⟩ => ⟨S21, .f32⟩
  | .hbm, ⟨10, _⟩ => ⟨S1x21, .f32⟩
  | .hbm, ⟨11, _⟩ => ⟨S65536x21, .f32⟩
  | .hbm, ⟨12, _⟩ => ⟨S65536x21, .f32⟩
  | .hbm, ⟨13, _⟩ => ⟨S65536x21, .f32⟩
  | .hbm, ⟨14, _⟩ => ⟨S512x21, .f32⟩
  | .hbm, ⟨15, _⟩ => ⟨S65536x21, .f32⟩
  | .hbm, ⟨16, _⟩ => ⟨S_, .f32⟩
  | .hbm, ⟨17, _⟩ => ⟨S65536x21, .f32⟩
  | .hbm, ⟨18, _⟩ => ⟨S65536x21, .f32⟩
  | .hbm, ⟨19, _⟩ => ⟨S65536x21, .f32⟩
  | .hbm, ⟨20, _⟩ => ⟨S_, .f32⟩
  | .hbm, ⟨21, _⟩ => ⟨S65536x21, .f32⟩
  | .hbm, ⟨22, _⟩ => ⟨S65536x21, .f32⟩
  | .hbm, ⟨23, _⟩ => ⟨S65536, .i32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x1, .i32⟩
  | .hbm, ⟨40, _⟩ => ⟨S65536x2, .i32⟩
  | .hbm, ⟨41, _⟩ => ⟨S65536, .f32⟩
  | .hbm, ⟨42, _⟩ => ⟨S65536x1, .i32⟩
  | .hbm, ⟨43, _⟩ => ⟨S21, .i32⟩
  | .hbm, ⟨44, _⟩ => ⟨S1x21, .i32⟩
  | .hbm, ⟨45, _⟩ => ⟨S65536x21, .i32⟩
  | .hbm, ⟨46, _⟩ => ⟨S65536x21, .i32⟩
  | .hbm, ⟨47, _⟩ => ⟨S65536x21, .i1⟩
  | .hbm, ⟨48, _⟩ => ⟨S_, .f32⟩
  | .hbm, ⟨49, _⟩ => ⟨S_, .f32⟩
  | .hbm, ⟨50, _⟩ => ⟨S65536x21, .f32⟩
  | .hbm, ⟨51, _⟩ => ⟨S65536x21, .f32⟩
  | .hbm, ⟨52, _⟩ => ⟨S_, .f32⟩
  | .hbm, ⟨53, _⟩ => ⟨S65536, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S65536, .f32⟩
  | .hbm, ⟨60, _⟩ => ⟨S65536, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_cst : Ref sig .tc := ⟨.hbm, 58, rfl⟩
abbrev main_call1_v0 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S21x512_S21_d1 : S21x512.ReducesTo [1] S21
  bcast_S21_S1x21_1 : S21.BroadcastsInDim S1x21 (![1] : Fin 1 → Fin S1x21.rank)
  bcast_S65536x1_S65536x21_0_1 : S65536x1.BroadcastsInDim S65536x21 (![0, 1] : Fin 2 → Fin S65536x21.rank)
  bcast_S1x21_S65536x21_0_1 : S1x21.BroadcastsInDim S65536x21 (![0, 1] : Fin 2 → Fin S65536x21.rank)
  transposes_S21x512_S512x21_1_0 : S21x512.Transposes [1, 0] S512x21
  bcast_S_S65536x21 : S_.BroadcastsInDim S65536x21 (![] : Fin 0 → Fin S65536x21.rank)
  bcast_S_S65536 : S_.BroadcastsInDim S65536 (![] : Fin 0 → Fin S65536.rank)
  concatenates_S65536x1_S65536x1_S65536x2_d1 : Shape.Concatenates [S65536x1, S65536x1] S65536x2 1
  reducesTo_S65536x21_S65536_d1 : S65536x21.ReducesTo [1] S65536
  reducesTo_S65536_S_d0 : S65536.ReducesTo [0] S_
  dot_S65536x512_S512x21_S65536x21_1_0_0_1_n_n_wf : DotDims.WF S65536x512 S512x21 S65536x21 [1] [0] [0] [1] [] []
  gather_S65536x21_S65536x2_S65536_n_01_n_n_01_1_11_wf : GatherDims.WF S65536x21 S65536x2 S65536 [] [0, 1] [] [0, 1] [] 1 ![1, 1]

variable [Facts₀]

def dot_S65536x512_S512x21_S65536x21_1_0_0_1_n_n : DotDims S65536x512 S512x21 S65536x21 where
  lhsContracting := [1]
  rhsContracting := [0]
  lhsNonContracting := [0]
  rhsNonContracting := [1]
  lhsBatch := []
  rhsBatch := []
  wf := dot_S65536x512_S512x21_S65536x21_1_0_0_1_n_n_wf
def gather_S65536x21_S65536x2_S65536_n_01_n_n_01_1_11 : GatherDims S65536x21 S65536x2 S65536 where
  offsetDims := []
  collapsedSliceDims := [0, 1]
  operandBatchingDims := []
  startIndicesBatchingDims := []
  startIndexMap := [0, 1]
  indexVectorDim := 1
  sliceSizes := ![1, 1]
  wf := gather_S65536x21_S65536x2_S65536_n_01_n_n_01_1_11_wf

class Facts : Prop extends Facts₀ where

variable [Facts]
-- ==== Proof.Pieces.lean ====
/-
  What one grid point leaves in the accumulator block, as a value.

  The body stores the accumulator block once per point: the block it loaded plus the tile's contribution
  (the payload `k0_pay1` of the own distances `k0_pay5`, the nearest-other distances `k0_pay6` and the loaded
  block). At the first point of each half of the grid the block is first reset to zero (`k0_pay2`) and read
  back, so the loaded block is the zero block there; at every other point it is what the point before left.
-/
import proofs.«426648_j15917148799617_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F] [Named F]

theorem hz : (![0, 0] : Fin 2 → Nat) = fun _ => 0 := funext fun a => by fin_cases a <;> rfl

/-- A point that is not the first of its half: the accumulator block `xo` the point before left, plus the tile's
    contribution. -/
theorem out_B (c : Dev nD) (i : grid0.Coords) (a2 : Memref sig .tc .vmem S2048x512 .f32) (h2 : a2.IsWhole)
    (a3 : Memref sig .tc .vmem S512x128 .bf16) (h3 : a3.IsWhole) (a4 : Memref sig .tc .vmem S1x128 .f32) (h4 : a4.IsWhole)
    (a5 : Memref sig .tc .vmem S2048x1 .i32) (h5 : a5.IsWhole) (a6 : Memref sig .tc .vmem S8x128 .f32) (h6 : a6.IsWhole)
    (hc : ¬cond0_0 i) (x0 : Vec F S2048x512 .f32) (x1 : Vec F S512x128 .bf16) (x2 : Vec F S1x128 .f32)
    (x3 : Vec F S2048x1 .i32) (xo : Vec F S8x128 .f32) :
    out0_B_4 c i a2 h2 a3 h3 a4 h4 a5 h5 a6 h6 hc x0 x1 x2 x3 xo
      = k0_pay1 (k0_pay5 x0 x1 x2 x3) (k0_pay6 x0 x1 x2 x3) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S2048x512) hz, View.ld_unit_zero (S := S512x128) hz, View.ld_unit_zero (S := S1x128) hz,
    View.ld_unit_zero (S := S2048x1) hz, View.ld_unit_zero (S := S8x128) hz]

/-- The first point of a half: the block is reset to zero, read back, and the tile's contribution added. -/
theorem out_A (c : Dev nD) (i : grid0.Coords) (a2 : Memref sig .tc .vmem S2048x512 .f32) (h2 : a2.IsWhole)
    (a3 : Memref sig .tc .vmem S512x128 .bf16) (h3 : a3.IsWhole) (a4 : Memref sig .tc .vmem S1x128 .f32) (h4 : a4.IsWhole)
    (a5 : Memref sig .tc .vmem S2048x1 .i32) (h5 : a5.IsWhole) (a6 : Memref sig .tc .vmem S8x128 .f32) (h6 : a6.IsWhole)
    (hc : cond0_0 i) (x0 : Vec F S2048x512 .f32) (x1 : Vec F S512x128 .bf16) (x2 : Vec F S1x128 .f32)
    (x3 : Vec F S2048x1 .i32) :
    out0_A_4 c i a2 h2 a3 h3 a4 h4 a5 h5 a6 h6 hc x0 x1 x2 x3
      = k0_pay1 (k0_pay5 x0 x1 x2 x3) (k0_pay6 x0 x1 x2 x3) (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread,
    View.ld_unit_zero (S := S2048x512) hz, View.ld_unit_zero (S := S512x128) hz, View.ld_unit_zero (S := S1x128) hz,
    View.ld_unit_zero (S := S2048x1) hz, View.ld_unit_zero (S := S8x128) hz]

end Cert.KernelIdeal.Acc

end
-- ==== Proof.Spec.lean ====
/-
  The mathematics both programs compute, stated once over the extended reals.

  Inputs: a feature matrix `f` (65536 rows of 512 numbers), 21 class centres `g` (512 numbers each) and one
  32-bit label word per row. For row `r` and class `c` the halved squared distance is expanded as
  `½ · ((‖f r‖² + ‖g c‖²) − 2 · ⟨f r, g c⟩)`. The row's own distance is the one at its label (written as a
  sum over the classes of the distance where the class equals the label, zero elsewhere: for a label in
  range this is the single entry), its nearest other distance the minimum over the classes that differ from
  the label (the label's own entry replaced by `+∞`, the neutral element of `min`). The row's loss is the
  hinge `max (own + margin − other) 0`, and the result is the sum of the row losses divided by the row count.

  The second half of the file is the regrouping law: the total over the rows equals the total over a
  16 × 128 table that holds, in row 0 and in row 8, column 0, the sums of the sixteen 2048-row tile sums of
  the first and of the second half of the rows, and zeros elsewhere.
-/
import Idealize.ShloMosaic.PureOps.Ideal
import Idealize.ShloMosaic.PureOps.Ideal.Laws
import Idealize.ShloMosaic.Lib.ValueIdx

noncomputable section

open scoped BigOperators

namespace Cert.CenterMargin

open Idealize.ShloMosaic Idealize.ShloMosaic.ValueIdx

/-- The literals the two programs share, as the extended reals their words denote (never evaluated: the same
    word stands on both sides). -/
abbrev half : EReal := Ideal.ofBits .f32 0x3F000000#32
abbrev two : EReal := Ideal.ofBits .f32 0x40000000#32
abbrev margin : EReal := Ideal.ofBits .f32 0x40A00000#32

variable (f : (⟨2, ![65536, 512]⟩ : Shape).Idx → EReal) (g : (⟨2, ![21, 512]⟩ : Shape).Idx → EReal)
  (lab : (⟨1, ![65536]⟩ : Shape).Idx → BitVec 32)

/-- The squared norm of feature row `r`. -/
def fnorm (r : Fin 65536) : EReal := ∑ k : Fin 512, f (ix2 r k) * f (ix2 r k)

/-- The squared norm of centre `c`. -/
def gnorm (c : Fin 21) : EReal := ∑ k : Fin 512, g (ix2 c k) * g (ix2 c k)

/-- The inner product of feature row `r` with centre `c`. -/
def inner (r : Fin 65536) (c : Fin 21) : EReal := ∑ k : Fin 512, f (ix2 r k) * g (ix2 c k)

/-- The halved squared distance of row `r` to centre `c`, in its expanded form. -/
def dist (r : Fin 65536) (c : Fin 21) : EReal :=
  half * ((fnorm f r + gnorm g c) - two * inner f g r c)

/-- Class `c` is row `r`'s label. -/
abbrev isLabel (r : Fin 65536) (c : ℕ) : Prop := lab (ix1 r) = BitVec.ofNat 32 c

/-- The distance of row `r` to its own centre: the distance summed over the classes equal to the label. -/
def own (r : Fin 65536) : EReal := ∑ c : Fin 21, if isLabel lab r c.val then dist f g r c else 0

/-- The distance of row `r` to the nearest centre that is not its own. -/
def other (r : Fin 65536) : EReal :=
  (Finset.univ : Finset (Fin 21)).fold min ⊤ fun c => if isLabel lab r c.val then ⊤ else dist f g r c

/-- Row `r`'s hinge loss. -/
def rowLoss (r : Fin 65536) : EReal := max ((own f g lab r + margin) - other f g lab r) 0

/-- The sum of the row losses. -/
def total : EReal := ∑ r : Fin 65536, rowLoss f g lab r

/-- The result: the mean of the row losses, the quotient by the row count as the host divides. -/
def meanLoss : (⟨0, ![]⟩ : Shape).Idx → EReal :=
  Host.divf (F := Ideal) (fun _ => Ideal.ofBits .f32 0x00000000#32 + total f g lab) (constant (F := Ideal) ⟨0, ![]⟩ .f32 0x47800000#32)

/-! ## The rows in tiles of 2048, the tiles in two halves of sixteen -/

/-- Row number `n` (taken modulo the row count, so that the function is total). -/
def rowAt (n : ℕ) : Fin 65536 := ⟨n % 65536, Nat.mod_lt _ (by decide)⟩

/-- The sum of the losses of the 2048 rows of tile `t`. -/
def tileSum (t : ℕ) : EReal := ∑ p : Fin 2048, rowLoss f g lab (rowAt (2048 * t + p.val))

/-- The 16 × 128 table of partial sums: rows 0 and 8 hold in column 0 the sum of the sixteen tile sums of the first
    and of the second half of the tiles; every other entry is zero. -/
def table (a : Fin 16) (b : Fin 128) : EReal :=
  if a.val % 8 = 0 ∧ b.val = 0 then ∑ i ∈ Finset.range 16, tileSum f g lab (16 * (a.val / 8) + i) else 0

/-! ## One tile, as a function of the four blocks a grid point works on

`x0` is the tile's 2048 feature rows, `x1` the centres transposed and padded to 128 columns, `x2` the centres'
squared norms padded to 128 columns, `x3` the tile's labels as a column. Columns from 21 on are padding: their
distance is `+∞`, whatever the padded blocks hold there. -/

section Tile

variable (x0 : (⟨2, ![2048, 512]⟩ : Shape).Idx → EReal) (x1 : (⟨2, ![512, 128]⟩ : Shape).Idx → EReal)
  (x2 : (⟨2, ![1, 128]⟩ : Shape).Idx → EReal) (x3 : (⟨2, ![2048, 1]⟩ : Shape).Idx → BitVec 32)

/-- The halved squared distance of the tile's row `p` to column `q`'s centre; `+∞` on the padding columns. -/
def tileDist (p : Fin 2048) (q : Fin 128) : EReal :=
  if q.val < 21 then
    half * (((∑ k : Fin 512, x0 (ix2 p k) * x0 (ix2 p k)) + x2 (ix2 (0 : Fin 1) q)) - two * ∑ k : Fin 512, x0 (ix2 p k) * x1 (ix2 k q))
  else ⊤

/-- Row `p`'s distance to its own centre, as the sum over the columns equal to its label. -/
def tileOwn (p : Fin 2048) : EReal :=
  ∑ q : Fin 128, if x3 (ix2 p (0 : Fin 1)) = BitVec.ofNat 32 q.val then tileDist x0 x1 x2 p q else 0

/-- Row `p`'s distance to the nearest other centre. -/
def tileOther (p : Fin 2048) : EReal :=
  (Finset.univ : Finset (Fin 128)).fold min ⊤ fun q => if x3 (ix2 p (0 : Fin 1)) = BitVec.ofNat 32 q.val then ⊤ else tileDist x0 x1 x2 p q

/-- The sum of the tile's 2048 hinge losses. -/
def tileLoss : EReal := ∑ p : Fin 2048, max ((tileOwn x0 x1 x2 x3 p + margin) - tileOther x0 x1 x2 x3 p) 0

end Tile

end Cert.CenterMargin

end
-- ==== Proof.Accumulate.lean ====
/-
  The accumulator across the grid, and the array it leaves.

  The grid has 32 points, two halves of sixteen. Each point adds its tile's loss sum into entry (0, 0) of an
  8 × 128 block (and zero into every other entry); the block is reset at the first point of each half and
  written back after the last, to rows 0–7 (first half) and 8–15 (second half) of a 16 × 128 array. So after
  point `n` the block holds, at (0, 0), the sum of the tile losses from the first point of `n`'s half up to
  `n`, and zeros elsewhere (induction on the point); and the array ends with the two half sums at (0, 0) and
  (8, 0) and zeros elsewhere.
-/
import proofs.«426648_j15917148799617_3_alg».proof.Proof.Pieces
import proofs.«426648_j15917148799617_3_alg».proof.Proof.Spec
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.Acc

open Cert.KernelIdeal Cert.KernelIdeal.Gen Cert.CenterMargin Idealize.ShloMosaic.ValueIdx

variable (m : (ℓ : Loc nD τ sig) → Buf (Elt Ideal) ℓ) (ρ : Dev nD → PrngReg)

/-- The four input blocks of grid point `t`, at their literal types. -/
abbrev blk0 (c : Dev nD) (t : Fin cfg0.N) : Vec Ideal S2048x512 .f32 := iblk m c 0 t
abbrev blk1 (c : Dev nD) (t : Fin cfg0.N) : Vec Ideal S512x128 .bf16 := iblk m c 1 t
abbrev blk2 (c : Dev nD) (t : Fin cfg0.N) : Vec Ideal S1x128 .f32 := iblk m c 2 t
abbrev blk3 (c : Dev nD) (t : Fin cfg0.N) : Vec Ideal S2048x1 .i32 := iblk m c 3 t

/-- The loss sum of the tile grid point `n` works on (zero past the grid, so that the function is total). -/
def contrib (c : Dev nD) (n : ℕ) : EReal :=
  if h : n < cfg0.N then tileLoss (blk0 m c ⟨n, h⟩) (blk1 m c ⟨n, h⟩) (blk2 m c ⟨n, h⟩) (blk3 m c ⟨n, h⟩) else 0

/-- The body's arithmetic, read at an entry of the block: the loaded block's entry plus the tile's loss sum at
    (0, 0), plus zero elsewhere; and the reset block is zero. -/
structure BodyValue : Prop where
  update : ∀ (x0 : Vec Ideal S2048x512 .f32) (x1 : Vec Ideal S512x128 .bf16) (x2 : Vec Ideal S1x128 .f32)
    (x3 : Vec Ideal S2048x1 .i32) (xo : Vec Ideal S8x128 .f32) (a : Fin 8) (b : Fin 128),
    k0_pay1 (F := Ideal) (k0_pay5 x0 x1 x2 x3) (k0_pay6 x0 x1 x2 x3) xo (ix2 a b)
      = xo (ix2 a b) + tileLoss x0 x1 x2 x3 * (if a.val = 0 ∧ b.val = 0 then (1 : EReal) else 0)
  reset : ∀ i : S8x128.Idx, k0_pay2 (F := Ideal) i = 0

variable (hb : BodyValue)
include hb

/-- At the first point of a half the block ends with the tile's loss sum at (0, 0) and zeros elsewhere. -/
theorem point_first (c : Dev nD) (t : Fin cfg0.N) (h0 : t.val % 16 = 0) (a : Fin 8) (b : Fin 128) :
    outsAt0 m c t.val t.isLt (ix2 a b) = if a.val = 0 ∧ b.val = 0 then contrib m c t.val else 0 := by
  rw [outsAt0_A m c t h0, out_A]
  refine (hb.update (blk0 m c t) (blk1 m c t) (blk2 m c t) (blk3 m c t) (k0_pay2 (F := Ideal)) a b).trans ?_
  rw [hb.reset, zero_add]
  unfold contrib
  rw [dif_pos t.isLt]
  by_cases hab : a.val = 0 ∧ b.val = 0
  · rw [if_pos hab, if_pos hab, mul_one]
  · rw [if_neg hab, if_neg hab, mul_zero]

/-- At any other point the block ends with what the point before left, plus the tile's loss sum at (0, 0). -/
theorem point_next (c : Dev nD) (t : Fin cfg0.N) (h0 : ¬t.val % 16 = 0) (a : Fin 8) (b : Fin 128) :
    outsAt0 m c t.val t.isLt (ix2 a b)
      = outsAt0 m c (t.val - 1) (Nat.lt_of_le_of_lt (Nat.sub_le _ _) t.isLt) (ix2 a b)
        + (if a.val = 0 ∧ b.val = 0 then contrib m c t.val else 0) := by
  rw [outsAt0_B m c t h0, out_B]
  refine (hb.update (blk0 m c t) (blk1 m c t) (blk2 m c t) (blk3 m c t) _ a b).trans ?_
  unfold contrib
  rw [dif_pos t.isLt]
  by_cases hab : a.val = 0 ∧ b.val = 0
  · rw [if_pos hab, if_pos hab, mul_one]
  · rw [if_neg hab, if_neg hab, mul_zero]

/-- After point `n` the block holds at (0, 0) the sum of the tile losses from the first point of `n`'s half up to
    `n`, and zeros elsewhere. -/
theorem outsAt_eq (c : Dev nD) : ∀ (n : ℕ) (h : n < cfg0.N) (a : Fin 8) (b : Fin 128),
    outsAt0 m c n h (ix2 a b)
      = if a.val = 0 ∧ b.val = 0 then ∑ k ∈ Finset.range (n % 16 + 1), contrib m c (n - n % 16 + k) else 0 := by
  intro n
  induction n with
  | zero =>
    intro h a b
    rw [point_first m hb c ⟨0, h⟩ rfl a b]
    simp
  | succ n ih =>
    intro h a b
    by_cases h0 : (n + 1) % 16 = 0
    · rw [point_first m hb c ⟨n + 1, h⟩ h0 a b]
      show (if a.val = 0 ∧ b.val = 0 then contrib m c (n + 1) else 0) = _
      rw [h0]
      simp
    · rw [point_next m hb c ⟨n + 1, h⟩ h0 a b]
      show outsAt0 m c n _ (ix2 a b) + (if a.val = 0 ∧ b.val = 0 then contrib m c (n + 1) else 0) = _
      rw [ih (Nat.lt_of_succ_lt h) a b]
      have e1 : (n + 1) % 16 = n % 16 + 1 := by omega
      have e2 : n + 1 - (n + 1) % 16 = n - n % 16 := by omega
      by_cases hab : a.val = 0 ∧ b.val = 0
      · have e3 : n - n % 16 + (n % 16 + 1) = n + 1 := by omega
        rw [if_pos hab, if_pos hab, if_pos hab, e2, e1,
          Finset.sum_range_succ (fun k => contrib m c (n - n % 16 + k)) (n % 16 + 1), e3]
      · rw [if_neg hab, if_neg hab, if_neg hab, add_zero]

omit hb in
/-- The output window's block index at point `t`: the half `t` lies in, column block 0 (decided over the grid). -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- What the accumulator array ends holding: at (0, 0) and (8, 0) the sum of the sixteen tile losses of the first and
    of the second half of the grid; zero elsewhere. -/
def accTable (c : Dev nD) : S16x128.Idx → EReal := fun i =>
  if (i 0).val % 8 = 0 ∧ (i 1).val = 0 then ∑ k ∈ Finset.range 16, contrib m c (16 * ((i 0).val / 8) + k) else 0

/-- The last point of each half writes back the block of that table it covers. -/
theorem flushed_eq (c : Dev nD) (t : Fin cfg0.N) (hf : (cfg0.win 4).flush t = true) :
    (dats m 0 c).flushed 4 t = ((cfg0.win 4).blk t).view.read (Elt Ideal) (accTable m c) := by
  have h15 : t.val % 16 = 15 := (flush0_4 t).mp hf
  have hN : t.val < 32 := lt_of_lt_of_eq t.isLt N_0
  obtain ⟨e0, e1⟩ := idx4 t
  show (cfg0.win 4).cut (grid0.coords t) ((dats m 0 c).after 4 t) = _
  rw [after0_4]
  refine funext fun (y : S8x128.Idx) => ?_
  obtain ⟨a, b, rfl⟩ : ∃ (a : Fin 8) (b : Fin 128), y = ix2 a b := ⟨y 0, y 1, eq_ix2 y⟩
  have ha : a.val < 8 := a.isLt
  show outsAt0 m c t.val t.isLt (ix2 a b) = accTable m c (((cfg0.win 4).blk t).view.emb (ix2 a b))
  rw [outsAt_eq m hb c t.val t.isLt a b]
  have hemb0 : ((((cfg0.win 4).blk t).view.emb (ix2 a b)) 0).val = win0_4.index t (0 : Fin 2) * 8 + 1 * a.val := rfl
  have hemb1 : ((((cfg0.win 4).blk t).view.emb (ix2 a b)) 1).val = win0_4.index t (1 : Fin 2) * 128 + 1 * b.val := rfl
  unfold accTable
  dsimp only
  rw [hemb0, hemb1, e0, e1]
  have c2 : (t.val / 16 * 8 + 1 * a.val) / 8 = t.val / 16 := by omega
  have c3 : t.val % 16 + 1 = 16 := by omega
  have c4 : t.val - t.val % 16 = 16 * (t.val / 16) := by omega
  by_cases hab : a.val = 0 ∧ b.val = 0
  · rw [if_pos hab, if_pos (by omega), c2, c3, c4]
  · rw [if_neg hab, if_neg (by omega)]

omit hb in
/-- An index of the array lies in point `t`'s block iff each coordinate lies in the block's range. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v8).slice (win0_4.rect t)).set ↔ _
  rw [View.set_slice_whole, Rect.mem_set_unit]
  exact Iff.rfl

/-- So the accumulator array ends holding the table: the two written-back blocks cover it. -/
theorem final (c : Dev nD) : (dats m 0 c).arrAt 4 cfg0.N = accTable m c :=
  (dats m 0 c).arrAt_eq_of_cover 4 (accTable m c) (fun t hf => flushed_eq m hb c t hf) fun (i : S16x128.Idx) => by
    have hi0 : (i 0).val < 16 := (i 0).isLt
    have hi1 : (i 1).val < 128 := (i 1).isLt
    have hlt : 16 * ((i 0).val / 8) + 15 < cfg0.N := by rw [show cfg0.N = 32 from N_0]; omega
    refine ⟨⟨16 * ((i 0).val / 8) + 15, hlt⟩, (flush0_4 _).mpr (by show (16 * ((i 0).val / 8) + 15) % 16 = 15; omega), ?_⟩
    rw [mem_blk4]
    obtain ⟨e0, e1⟩ := idx4 ⟨16 * ((i 0).val / 8) + 15, hlt⟩
    intro a
    match a with
    | ⟨0, _⟩ =>
      show win0_4.index _ (0 : Fin 2) * 8 ≤ (i 0).val ∧ (i 0).val < win0_4.index _ (0 : Fin 2) * 8 + 8
      rw [e0]; show (16 * ((i 0).val / 8) + 15) / 16 * 8 ≤ (i 0).val ∧ (i 0).val < (16 * ((i 0).val / 8) + 15) / 16 * 8 + 8
      omega
    | ⟨1, _⟩ =>
      show win0_4.index _ (1 : Fin 2) * 128 ≤ (i 1).val ∧ (i 1).val < win0_4.index _ (1 : Fin 2) * 128 + 128
      rw [e1]; omega

end Cert.KernelIdeal.Acc

end
-- ==== Proof.Blocks.lean ====
/-
  What the kernel's grid points read.

  Before the grid runs, the host prepares three arrays from the arguments: the labels as a column; the centres
  padded with zero rows to 128 rows and transposed (the change of float format is the identity on the extended
  reals), so that entry (k, q) is centre q's coordinate k for q < 21; and the centres' squared norms padded to 128
  columns as one row, so that entry (0, q) is centre q's squared norm for q < 21. Grid point `t` then reads rows
  2048·t … 2048·t + 2047 of the features and of the label column, and the two prepared arrays whole.
-/
import proofs.«426648_j15917148799617_3_alg».proof.Proof.Gen.KernelIdeal.Frame
import proofs.«426648_j15917148799617_3_alg».proof.Proof.Spec
import Idealize.ShloMosaic.Lib.KernelVsHost
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem

namespace Cert.KernelIdeal.Acc

open Cert.KernelIdeal Cert.KernelIdeal.Gen Cert.CenterMargin Idealize.ShloMosaic.ValueIdx Idealize.ShloMosaic.StableHlo

variable (m : (ℓ : Loc nD τ sig) → Buf (Elt Ideal) ℓ)

/-- The three argument arrays of core `c`. -/
abbrev feat (c : Dev nD) : S65536x512.Idx → EReal := m ((c : Thread nD τ).loc main_arg0)
abbrev cent (c : Dev nD) : S21x512.Idx → EReal := m ((c : Thread nD τ).loc main_arg1)
abbrev labl (c : Dev nD) : S65536.Idx → BitVec 32 := m ((c : Thread nD τ).loc main_arg2)

/-! ## The arrays the host prepares -/

theorem labelCol_eq (c : Dev nD) :
    (V m c main_v0 : S65536x1.Idx → BitVec 32) = shapeCast S65536x1 (labl m c) shapeCasts_S65536_S65536x1 := by
  dsimp only [V, V0]
  simp only [hostOps0, hostOps0_1, hostOps0_2, hostOps0_3, hostOps0_4, List.flatten_cons, List.flatten_nil, List.append_nil, List.cons_append, List.nil_append]
  after_results
  rfl

theorem centresT_eq (c : Dev nD) :
    (V m c main_v3 : S512x128.Idx → EReal)
      = transpose S512x128 [1, 0] (truncf (F := Ideal) .bf16 (pad S128x512 ![0, 0] ![107, 0] ![0, 0] (cent m c)
          (sitofp (F := Ideal) .f32 (constantI S_ 32 0#32)) pads_S21x512_S128x512_01070_000 h_S_) bitsLt_bf16_f32)
          transposes_S128x512_S512x128_1_0 := by
  dsimp only [V, V0]
  simp only [hostOps0, hostOps0_1, hostOps0_2, hostOps0_3, hostOps0_4, List.flatten_cons, List.flatten_nil, List.append_nil, List.cons_append, List.nil_append]
  after_results
  rfl

theorem normRow_eq (c : Dev nD) :
    (V m c main_v7 : S1x128.Idx → EReal)
      = shapeCast S1x128 (pad S128 ![0] ![107] ![0]
          (Host.reduceAdd (F := Ideal) (mulf (cent m c) (cent m c)) (constant (F := Ideal) S_ .f32 0x00000000#32) reducesTo_S21x512_S21_d1 h_S_)
          (constant (F := Ideal) S_ .f32 0x7149F2CA#32) pads_S21_S128_01070 h_S_) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

/-- The label column at row `r` is row `r`'s label. -/
theorem labelCol_apply (c : Dev nD) (r : Fin 65536) : V m c main_v0 (ix2 r (0 : Fin 1)) = labl m c (ix1 r) := by
  rw [labelCol_eq]
  exact shapeCast_apply _ _ _ _ (by
    rw [Shape.rowMajor_val_two, Shape.rowMajor_val_one]
    show r.val = r.val * 1 + 0
    omega)

/-- The transposed padded centres at (k, q), q < 21: centre q's coordinate k. -/
theorem centresT_apply (c : Dev nD) (k : Fin 512) (q : Fin 128) (hq : q.val < 21) :
    V m c main_v3 (ix2 k q) = cent m c (ix2 (⟨q.val, hq⟩ : Fin 21) k) := by
  rw [centresT_eq, transpose_ix2_apply, truncf_apply]
  exact pad_apply_of_inside _ _ _ _ _ _ _ _ _ (fun a => match a with
    | ⟨0, _⟩ => by show q.val = 0 + q.val * (0 + 1); omega
    | ⟨1, _⟩ => by show k.val = 0 + k.val * (0 + 1); omega)

/-- The padded norm row at (0, q), q < 21: centre q's squared norm. -/
theorem normRow_apply (c : Dev nD) (q : Fin 128) (hq : q.val < 21) :
    V m c main_v7 (ix2 (0 : Fin 1) q) = gnorm (cent m c) ⟨q.val, hq⟩ := by
  rw [normRow_eq, shapeCast_a_1a_apply]
  refine (pad_apply_of_inside _ _ _ _ _ _ _ (ix1 q) (ix1 (⟨q.val, hq⟩ : Fin 21)) (fun a => match a with
    | ⟨0, _⟩ => by show q.val = 0 + q.val * (0 + 1); omega)).trans ?_
  simp only [Host.reduceAdd, Ideal.hostReduceAdd_def]
  rw [Ideal.hostReduceAdd_single reducesTo_S21x512_S21_d1 (by decide)]
  show Ideal.ofBits .f32 0x00000000#32 + _ = _
  rw [Ideal.ofBits_zero_f32, zero_add]
  unfold gnorm
  refine Finset.sum_congr rfl fun k _ => ?_
  have e : ∀ i : S21x512.Idx, (i 0).val = q.val → (i 1).val = k.val →
      cent m c i = cent m c (ix2 (⟨q.val, hq⟩ : Fin 21) k) :=
    fun i h0 h1 => congrArg _ (funext fun a => Fin.ext (by match a with | ⟨0, _⟩ => exact h0 | ⟨1, _⟩ => exact h1))
  rw [mulf_apply]
  exact congrArg₂ (· * ·) (e _ rfl rfl) (e _ rfl rfl)

/-! ## The blocks a grid point reads -/

/-- The input windows' block indices at point `t` (decided over the grid): the features and the label column move
    with the point, the two prepared arrays are read whole. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The feature block of point `t` at (p, k): feature row 2048·t + p, coordinate k. -/
theorem featBlock_apply (c : Dev nD) (t : Fin cfg0.N) (p : Fin 2048) (k : Fin 512) :
    (iblk m c 0 t : Vec Ideal S2048x512 .f32) (ix2 p k) = feat m c (ix2 (rowAt (2048 * t.val + p.val)) k) := by
  obtain ⟨e0, e1, -⟩ := idx_in t
  have hN : t.val < 32 := lt_of_lt_of_eq t.isLt N_0
  have hp : p.val < 2048 := p.isLt
  unfold iblk
  rw [View.read_apply]
  show V m c main_arg0 _ = _
  refine (congrFun (V_main_arg0 m c) _).trans ?_
  refine congrArg (feat m c) (funext fun a => Fin.ext ?_)
  match a with
  | ⟨0, _⟩ =>
    show win0_0.index t (0 : Fin 2) * 2048 + 1 * p.val = (2048 * t.val + p.val) % 65536
    rw [e0]; omega
  | ⟨1, _⟩ =>
    show win0_0.index t (1 : Fin 2) * 512 + 1 * k.val = k.val
    rw [e1]; omega

/-- The centre block of any point at (k, q), q < 21: centre q's coordinate k. -/
theorem centBlock_apply (c : Dev nD) (t : Fin cfg0.N) (k : Fin 512) (q : Fin 128) (hq : q.val < 21) :
    (iblk m c 1 t : Vec Ideal S512x128 .bf16) (ix2 k q) = cent m c (ix2 (⟨q.val, hq⟩ : Fin 21) k) := by
  obtain ⟨-, -, e0, e1, -⟩ := idx_in t
  unfold iblk
  rw [View.read_apply]
  show V m c main_v3 _ = _
  refine Eq.trans (congrArg (V m c main_v3) (funext fun a => Fin.ext ?_)) (centresT_apply m c k q hq)
  match a with
  | ⟨0, _⟩ =>
    show win0_1.index t (0 : Fin 2) * 512 + 1 * k.val = k.val
    rw [e0]; omega
  | ⟨1, _⟩ =>
    show win0_1.index t (1 : Fin 2) * 128 + 1 * q.val = q.val
    rw [e1]; omega

/-- The norm block of any point at (0, q), q < 21: centre q's squared norm. -/
theorem normBlock_apply (c : Dev nD) (t : Fin cfg0.N) (q : Fin 128) (hq : q.val < 21) :
    (iblk m c 2 t : Vec Ideal S1x128 .f32) (ix2 (0 : Fin 1) q) = gnorm (cent m c) ⟨q.val, hq⟩ := by
  obtain ⟨-, -, -, -, e0, e1, -⟩ := idx_in t
  unfold iblk
  rw [View.read_apply]
  show V m c main_v7 _ = _
  refine Eq.trans (congrArg (V m c main_v7) (funext fun a => Fin.ext ?_)) (normRow_apply m c q hq)
  match a with
  | ⟨0, _⟩ =>
    show win0_2.index t (0 : Fin 2) * 1 + 1 * 0 = 0
    rw [e0]
  | ⟨1, _⟩ =>
    show win0_2.index t (1 : Fin 2) * 128 + 1 * q.val = q.val
    rw [e1]; omega

/-- The label block of point `t` at (p, 0): the label of row 2048·t + p. -/
theorem labelBlock_apply (c : Dev nD) (t : Fin cfg0.N) (p : Fin 2048) :
    (iblk m c 3 t : Vec Ideal S2048x1 .i32) (ix2 p (0 : Fin 1)) = labl m c (ix1 (rowAt (2048 * t.val + p.val))) := by
  obtain ⟨-, -, -, -, -, -, e0, e1⟩ := idx_in t
  have hN : t.val < 32 := lt_of_lt_of_eq t.isLt N_0
  have hp : p.val < 2048 := p.isLt
  unfold iblk
  rw [View.read_apply]
  show V m c main_v0 _ = _
  refine Eq.trans (congrArg (V m c main_v0) (funext fun a => Fin.ext ?_)) (labelCol_apply m c (rowAt (2048 * t.val + p.val)))
  match a with
  | ⟨0, _⟩ =>
    show win0_3.index t (0 : Fin 2) * 2048 + 1 * p.val = (2048 * t.val + p.val) % 65536
    rw [e0]; omega
  | ⟨1, _⟩ =>
    show win0_3.index t (1 : Fin 2) * 1 + 1 * 0 = 0
    rw [e1]

end Cert.KernelIdeal.Acc

end
-- ==== Proof.Payload.lean ====
/-
  The kernel body's arithmetic at an index, over the extended reals.

  One grid point works on a tile: 2048 feature rows `x0`, the centres transposed and padded to 128 columns `x1`, the
  centres' squared norms padded likewise `x2`, and the tile's labels as a column `x3`. Read at coordinates, the
  distance block at `(p, q)` is `½ · ((‖x0 p‖² + x2 q) − 2 · ⟨x0 p, x1 q⟩)` on the 21 class columns and `+∞` on the
  padding; a row's own distance is the sum over the columns equal to its label, its nearest other distance the minimum
  over the columns with the label's own replaced by `+∞`; the tile's loss is the sum over its rows of the hinge
  `max (own + margin − other) 0`. The stored block is the loaded one plus the tile's loss in row 0, column 0
  (`tile_update`), and the block a half's first tile starts from is zero (`pay2_apply`).
-/
import proofs.«426648_j15917148799617_3_alg».proof.Proof.Gen.KernelIdeal.Skeleton
import proofs.«426648_j15917148799617_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.PureOps.Reduce

noncomputable section

open scoped BigOperators

namespace Cert.KernelIdeal.Body

open Cert.KernelIdeal Cert.KernelIdeal.Gen Cert.CenterMargin Idealize.ShloMosaic Idealize.ShloMosaic.ValueIdx

/-! ## Layout operations at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## Words -/

/-- The comparison of a small coordinate with the zero word is the bit of "the coordinate is zero". -/
theorem cmpi_eq_zero_ofNat (n : ℕ) (hn : n < 2 ^ 32) :
    IntOp.cmpi .eq (BitVec.ofNat 32 n) 0#32 = if n = 0 then 1#1 else 0#1 := by
  by_cases h0 : n = 0
  · subst h0; rfl
  · rw [if_neg h0]
    refine eq_zero_of_ne_one fun h1 => h0 ?_
    have e := congrArg BitVec.toNat (StableHlo.Predicate.cmpi_eq_iff.mp h1)
    simp only [BitVec.toNat_ofNat] at e
    rw [Nat.mod_eq_of_lt hn] at e
    simpa using e

/-- The float of the widened bit "row 0 and column 0" is `1` there and `0` elsewhere. -/
theorem mask_factor (a : Fin 8) (b : Fin 128) :
    ((((IntOp.andi (IntOp.cmpi .eq (BitVec.ofNat 32 a.val) 0#32) (IntOp.cmpi .eq (BitVec.ofNat 32 b.val) 0#32)).setWidth 32).toInt : ℝ) : EReal)
      = if a.val = 0 ∧ b.val = 0 then (1 : EReal) else 0 := by
  rw [cmpi_eq_zero_ofNat a.val (by have := a.isLt; omega), cmpi_eq_zero_ofNat b.val (by have := b.isLt; omega)]
  by_cases ha : a.val = 0
  · by_cases hb : b.val = 0
    · rw [if_pos ha, if_pos hb, if_pos ⟨ha, hb⟩]
      show (((1 : ℤ) : ℝ) : EReal) = 1
      simp
    · rw [if_pos ha, if_neg hb, if_neg (show ¬(a.val = 0 ∧ b.val = 0) from fun h => hb h.2)]
      show (((0 : ℤ) : ℝ) : EReal) = 0
      simp
  · rw [if_neg ha, if_neg (show ¬(a.val = 0 ∧ b.val = 0) from fun h => ha h.1)]
    have : ∀ y : BitVec 1, ((IntOp.andi 0#1 y).setWidth 32).toInt = 0 := by decide
    rw [this]
    simp

/-! ## The payloads at an index -/

/-- The zero block. -/
theorem pay2_apply (i : S8x128.Idx) : k0_pay2 (F := Ideal) i = 0 := by
  unfold k0_pay2
  show Ideal.ofBits .f32 0x00000000#32 = 0
  exact Ideal.ofBits_zero_f32

/-- The label comparison: the bit of "row `p`'s label is column `q`". -/
theorem pay4_apply (x3 : Vec Ideal S2048x1 .i32) (p : Fin 2048) (q : Fin 128) :
    k0_pay4 (F := Ideal) x3 (ix2 p q) = IntOp.cmpi .eq (x3 (ix2 p (0 : Fin 1))) (BitVec.ofNat 32 q.val) := by
  unfold k0_pay4
  show IntOp.cmpi .eq (broadcastTo S2048x128 (shapeCast S2048x1 x3 _) _ (ix2 p q)) (iota .tc S2048x128 32 [1] _ (ix2 p q)) = _
  rw [shapeCast_self, broadcastTo_a1_ab_apply, iota_single_apply]

/-! ## The distance block -/

/-- The product's operand indices, axis by axis: the left operand's row is the output's row, … -/
theorem lhs_dot_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
/-- … its column the contraction coordinate, … -/
theorem lhs_dot_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
/-- … the right operand's row the contraction coordinate, … -/
theorem rhs_dot_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
/-- … and its column the output's column. -/
theorem rhs_dot_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The cross term at `(p, q)`: the inner product of feature row `p` with centre column `q`. -/
theorem cross_apply (x0 : Vec Ideal S2048x512 .f32) (x1 : Vec Ideal S512x128 .bf16) (p : Fin 2048) (q : Fin 128) :
    matmul (F := Ideal) (φ₁ := .bf16) (φ₂ := .bf16) dot_S2048x512_S512x128_S2048x128_1_0_0_1_n_n none (truncf .bf16 (x0 : FVec Ideal S2048x512 .f32) bitsLt_bf16_f32)
        (shapeCast S512x128 x1 shapeCasts_S512x128_S512x128) (constant S2048x128 .f32 0x00000000#32) (ix2 p q)
      = ∑ k : Fin 512, x0 (ix2 p k) * x1 (ix2 k q) := by
  rw [shapeCast_self]
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]
  rfl

/-- The squared norm of feature row `p`: the lane sum of the squares. -/
theorem sq_apply (x0 : Vec Ideal S2048x512 .f32) (p : Fin 2048) :
    multiReduction (F := Ideal) .add [1] S2048 (mulf x0 x0) 0x00000000#32 reduces_S2048x512_S2048 (.inl rfl) rfl (ix1 p)
      = ∑ k : Fin 512, x0 (ix2 p k) * x0 (ix2 p k) := by
  refine (Ideal.multiReduction_add_single _ _ _ _ _ _).trans (Finset.sum_congr rfl fun k _ => ?_)
  have e : reduces_S2048x512_S2048.lift (ix1 p) k = ix2 p k :=
    funext fun a => Fin.ext (by match a with | ⟨0, _⟩ => rfl | ⟨1, _⟩ => rfl)
  rw [e]
  rfl

/-- The column test: a column index below 128 compares below 21 as a signed word exactly when it is. -/
theorem slt21 (q : Fin 128) : IntOp.cmpi .slt (BitVec.ofNat 32 q.val) 21#32 = if q.val < 21 then 1#1 else 0#1 := by
  have hq := q.isLt
  have h := StableHlo.Predicate.slt_ofNat_iff q.val 21 (by omega) (by omega)
  by_cases hlt : q.val < 21
  · rw [if_pos hlt]; exact h.mpr hlt
  · rw [if_neg hlt]; exact eq_zero_of_ne_one fun h1 => hlt (h.mp h1)

/-- The padding value. -/
theorem pos_big : Named.named (F := Ideal) κ "pos_big" (φ := .f32) 0x7149F2CA#32 = ⊤ :=
  IdealRules.named_const.ideal_named_scalar _ _ _ _ rfl

/-- The distance block at `(p, q)`. -/
theorem pay3_apply (x0 : Vec Ideal S2048x512 .f32) (x1 : Vec Ideal S512x128 .bf16) (x2 : Vec Ideal S1x128 .f32)
    (p : Fin 2048) (q : Fin 128) : k0_pay3 (F := Ideal) x0 x1 x2 (ix2 p q) = tileDist x0 x1 x2 p q := by
  unfold k0_pay3 tileDist
  simp only [select_apply, mulf_apply, subf_apply, addf_apply, broadcast_apply, cmpi]
  rw [iota_single_apply, cross_apply, broadcastTo_a1_ab_apply, shapeCast_a_a1_apply, sq_apply, broadcastTo_1b_ab_apply, shapeCast_self, slt21, pos_big]
  by_cases hlt : q.val < 21
  · rw [if_pos hlt, if_pos hlt, select_one]; rfl
  · rw [if_neg hlt, if_neg hlt, select_zero]

/-! ## Own distance and nearest other -/

/-- The index over row `p` with column `q` inserted on the reduced axis. -/
theorem lift_row (p : Fin 2048) (q : Fin 128) : reduces_S2048x128_S2048.lift (ix1 p) q = ix2 p q :=
  funext fun a => Fin.ext (by match a with | ⟨0, _⟩ => rfl | ⟨1, _⟩ => rfl)

/-- Row `p`'s own distance: the lane sum of the distances selected by the label comparison. -/
theorem pay5_apply (x0 : Vec Ideal S2048x512 .f32) (x1 : Vec Ideal S512x128 .bf16) (x2 : Vec Ideal S1x128 .f32)
    (x3 : Vec Ideal S2048x1 .i32) (p : Fin 2048) :
    k0_pay5 (F := Ideal) x0 x1 x2 x3 (ix2 p (0 : Fin 1)) = tileOwn x0 x1 x2 x3 p := by
  unfold k0_pay5 tileOwn
  simp only []
  rw [shapeCast_a_a1_apply]
  refine (Ideal.multiReduction_add_single _ _ _ _ _ _).trans (Finset.sum_congr rfl fun (q : Fin 128) _ => ?_)
  rw [lift_row, select_apply, pay4_apply, pay3_apply, broadcast_apply]
  by_cases hq : x3 (ix2 p (0 : Fin 1)) = BitVec.ofNat 32 q.val
  · rw [if_pos hq, StableHlo.Predicate.cmpi_eq_iff.mpr hq, select_one]
  · rw [if_neg hq, eq_zero_of_ne_one (fun h => hq (StableHlo.Predicate.cmpi_eq_iff.mp h)), select_zero]
    exact Ideal.ofBits_zero_f32

/-- The accumulator word of the minimum is `+∞`. -/
theorem ofBits_inf : Ideal.ofBits .f32 0x7F800000#32 = ⊤ := by simp [Ideal.ofBits, Ideal.ieee]

/-- Row `p`'s nearest other distance: the fold of `min` from `+∞` over the columns, the label's own column replaced by `+∞`. -/
theorem pay6_apply (x0 : Vec Ideal S2048x512 .f32) (x1 : Vec Ideal S512x128 .bf16) (x2 : Vec Ideal S1x128 .f32)
    (x3 : Vec Ideal S2048x1 .i32) (p : Fin 2048) :
    k0_pay6 (F := Ideal) x0 x1 x2 x3 (ix1 p) = tileOther x0 x1 x2 x3 p := by
  unfold k0_pay6 tileOther
  simp only []
  refine (multiReduction_minimumf_eq_fold _ _ _ _ _ _).trans ?_
  refine (reduces_S2048x128_S2048.fold_filter_drop_single _ _ _ (ix1 p)).trans ?_
  rw [Ideal.ofBits_def, ofBits_inf]
  refine Finset.fold_congr fun (q : Fin 128) _ => ?_
  show select _ _ _ (reduces_S2048x128_S2048.lift (ix1 p) q) = _
  rw [lift_row, select_apply, pay4_apply, pay3_apply, broadcast_apply, pos_big]
  by_cases hq : x3 (ix2 p (0 : Fin 1)) = BitVec.ofNat 32 q.val
  · rw [if_pos hq, StableHlo.Predicate.cmpi_eq_iff.mpr hq, select_one]
  · rw [if_neg hq, eq_zero_of_ne_one (fun h => hq (StableHlo.Predicate.cmpi_eq_iff.mp h)), select_zero]

/-! ## The tile's update of the accumulator block -/

/-- The index over the one reduced entry with row `p` inserted on the reduced axis. -/
theorem lift_col (p : Fin 2048) : reduces_S2048x1_S1.lift (ix1 (0 : Fin 1)) p = ix2 p (0 : Fin 1) :=
  funext fun a => Fin.ext (by match a with | ⟨0, _⟩ => rfl | ⟨1, _⟩ => rfl)

/-- The sum over the tile's rows of the hinge of own distance plus margin minus nearest other distance. -/
theorem loss_apply (x0 : Vec Ideal S2048x512 .f32) (x1 : Vec Ideal S512x128 .bf16) (x2 : Vec Ideal S1x128 .f32)
    (x3 : Vec Ideal S2048x1 .i32) :
    multiReduction (F := Ideal) .add [0] S1
        (maximumf
          (subf (addf (k0_pay5 x0 x1 x2 x3) (broadcast S2048x1 (Scalar.ofBits .f32 0x40A00000#32)))
            (shapeCast S2048x1 (k0_pay6 x0 x1 x2 x3) shapeCasts_S2048_S2048x1))
          (broadcast S2048x1 (Scalar.ofBits .f32 0x00000000#32)))
        0x00000000#32 reduces_S2048x1_S1 (.inl rfl) rfl (ix1 (0 : Fin 1))
      = tileLoss x0 x1 x2 x3 := by
  unfold tileLoss
  refine (Ideal.multiReduction_add_single _ _ _ _ _ _).trans (Finset.sum_congr rfl fun (p : Fin 2048) _ => ?_)
  rw [lift_col, maximumf_apply, subf_apply, addf_apply, shapeCast_a_a1_apply, pay5_apply, pay6_apply, broadcast_apply,
    broadcast_apply]
  show max (_ + margin - _) (Ideal.ofBits .f32 0x00000000#32) = _
  rw [Ideal.ofBits_zero_f32]

/-- THE TILE'S UPDATE: the stored block is the loaded one plus, in row 0, column 0, the tile's loss. -/
theorem tile_update (x0 : Vec Ideal S2048x512 .f32) (x1 : Vec Ideal S512x128 .bf16) (x2 : Vec Ideal S1x128 .f32)
    (x3 : Vec Ideal S2048x1 .i32) (xo : Vec Ideal S8x128 .f32) (a : Fin 8) (b : Fin 128) :
    k0_pay1 (F := Ideal) (k0_pay5 x0 x1 x2 x3) (k0_pay6 x0 x1 x2 x3) xo (ix2 a b)
      = xo (ix2 a b) + tileLoss x0 x1 x2 x3 * (if a.val = 0 ∧ b.val = 0 then (1 : EReal) else 0) := by
  unfold k0_pay1
  simp only [addf_apply, mulf_apply, sitofp_apply, extui_apply, shapeCast_self]
  rw [broadcastTo_11_ab_apply, shapeCast_a_1a_apply, loss_apply]
  refine congrArg (fun z => xo (ix2 a b) + tileLoss x0 x1 x2 x3 * z) ?_
  show ((((IntOp.andi (IntOp.cmpi .eq (iota .tc S8x128 32 [0] iota_S8x128_d0_w32 (ix2 a b)) 0#32)
    (IntOp.cmpi .eq (iota .tc S8x128 32 [1] iota_S8x128_d1_w32 (ix2 a b)) 0#32)).setWidth 32).toInt : ℝ) : EReal) = _
  rw [iota_single_apply, iota_single_apply]
  exact mask_factor a b

end Cert.KernelIdeal.Body

end
-- ==== Proof.TileLaw.lean ====
/-
  The tile law and the regrouping law, over the extended reals.

  One tile: if the four blocks hold the tile's 2048 feature rows, the centres (transposed, in the first 21 of
  128 columns), the centres' squared norms (in the first 21 of 128 columns) and the tile's labels, and every
  label word denotes a class below 21, then the tile's sum of hinge losses is the sum of the row losses of the
  tile's rows. The padding columns carry distance +∞; they never equal a label, so they add zero to the own
  distance and leave the minimum over the other classes unchanged.

  Regrouping: the 16 × 128 table has two nonzero entries, the sums of the tile sums of the two halves of the 32
  tiles; the 32 tiles of 2048 rows partition the 65536 rows.
-/
import proofs.«426648_j15917148799617_3_alg».proof.Proof.Spec
import Mathlib.Data.Finset.Fold
import Mathlib.Data.Fin.Embedding
import Mathlib.Data.Fintype.BigOperators
import Mathlib.Algebra.BigOperators.Fin
import Mathlib.Algebra.BigOperators.Group.Finset.Basic
import Mathlib.Logic.Equiv.Fin.Basic

noncomputable section

open scoped BigOperators

namespace Cert.CenterMargin

open Idealize.ShloMosaic Idealize.ShloMosaic.ValueIdx

/-! ## Padding columns -/

/-- A sum over 128 columns whose terms vanish from column 21 on is the sum over the first 21 columns. -/
theorem sum_pad {M : Type*} [AddCommMonoid M] (F : Fin 128 → M)
    (hF : ∀ q : Fin 128, 21 ≤ q.val → F q = 0) :
    ∑ q : Fin 128, F q = ∑ c : Fin 21, F (Fin.castLE (by decide : 21 ≤ 128) c) := by
  have h : ∑ c : Fin 21, F (Fin.castLE (by decide : 21 ≤ 128) c)
      = ∑ q ∈ (Finset.univ : Finset (Fin 21)).map (Fin.castLEEmb (by decide : 21 ≤ 128)), F q := by
    rw [Finset.sum_map]; rfl
  rw [h]
  symm
  refine Finset.sum_subset (Finset.subset_univ _) fun q _ hq => hF q ?_
  by_contra hlt
  exact hq (Finset.mem_map.mpr ⟨⟨q.val, by omega⟩, Finset.mem_univ _, Fin.ext rfl⟩)

/-- A minimum over 128 columns whose terms are +∞ from column 21 on is the minimum over the first 21 columns:
    both sides have the same lower bounds. -/
theorem fold_min_pad (F : Fin 128 → EReal) (hF : ∀ q : Fin 128, 21 ≤ q.val → F q = ⊤) :
    (Finset.univ : Finset (Fin 128)).fold min ⊤ F
      = (Finset.univ : Finset (Fin 21)).fold min ⊤ fun c => F (Fin.castLE (by decide : 21 ≤ 128) c) := by
  refine eq_of_forall_le_iff fun c => ?_
  rw [Finset.le_fold_min, Finset.le_fold_min]
  refine and_congr Iff.rfl ⟨fun h x _ => h _ (Finset.mem_univ _), fun h q _ => ?_⟩
  by_cases hq : q.val < 21
  · exact h ⟨q.val, hq⟩ (Finset.mem_univ _)
  · rw [hF q (by omega)]; exact le_top

/-- A label word that denotes a class below 21 is not the word of a padding column. -/
theorem ne_ofNat_pad (w : BitVec 32) (hw : w.toNat < 21) (q : Fin 128) (hq : 21 ≤ q.val) :
    w ≠ BitVec.ofNat 32 q.val := by
  intro h
  have h' := congrArg BitVec.toNat h
  rw [BitVec.toNat_ofNat, Nat.mod_eq_of_lt (by have := q.2; omega)] at h'
  omega

/-! ## One tile -/

section Tile

variable (f : (⟨2, ![65536, 512]⟩ : Shape).Idx → EReal) (g : (⟨2, ![21, 512]⟩ : Shape).Idx → EReal)
  (lab : (⟨1, ![65536]⟩ : Shape).Idx → BitVec 32) (t : ℕ)
  (x0 : (⟨2, ![2048, 512]⟩ : Shape).Idx → EReal) (x1 : (⟨2, ![512, 128]⟩ : Shape).Idx → EReal)
  (x2 : (⟨2, ![1, 128]⟩ : Shape).Idx → EReal) (x3 : (⟨2, ![2048, 1]⟩ : Shape).Idx → BitVec 32)

/-- On a class column the tile distance is the distance of the tile's row to that class. -/
theorem tileDist_eq
    (h0 : ∀ (p : Fin 2048) (k : Fin 512), x0 (ix2 p k) = f (ix2 (rowAt (2048 * t + p.val)) k))
    (h1 : ∀ (k : Fin 512) (q : Fin 128) (hq : q.val < 21), x1 (ix2 k q) = g (ix2 (⟨q.val, hq⟩ : Fin 21) k))
    (h2 : ∀ (q : Fin 128) (hq : q.val < 21), x2 (ix2 (0 : Fin 1) q) = gnorm g ⟨q.val, hq⟩)
    (p : Fin 2048) (q : Fin 128) (hq : q.val < 21) :
    tileDist x0 x1 x2 p q = dist f g (rowAt (2048 * t + p.val)) ⟨q.val, hq⟩ := by
  unfold tileDist dist fnorm inner
  rw [if_pos hq, h2 q hq]
  simp only [h0, h1 _ q hq]

/-- The tile's own distance of a row is the row's own distance. -/
theorem tileOwn_eq
    (h0 : ∀ (p : Fin 2048) (k : Fin 512), x0 (ix2 p k) = f (ix2 (rowAt (2048 * t + p.val)) k))
    (h1 : ∀ (k : Fin 512) (q : Fin 128) (hq : q.val < 21), x1 (ix2 k q) = g (ix2 (⟨q.val, hq⟩ : Fin 21) k))
    (h2 : ∀ (q : Fin 128) (hq : q.val < 21), x2 (ix2 (0 : Fin 1) q) = gnorm g ⟨q.val, hq⟩)
    (h3 : ∀ p : Fin 2048, x3 (ix2 p (0 : Fin 1)) = lab (ix1 (rowAt (2048 * t + p.val))))
    (hlab : ∀ r : Fin 65536, (lab (ix1 r)).toNat < 21) (p : Fin 2048) :
    tileOwn x0 x1 x2 x3 p = own f g lab (rowAt (2048 * t + p.val)) := by
  unfold tileOwn own
  rw [h3 p, sum_pad _ fun q hq => if_neg (ne_ofNat_pad _ (hlab _) q hq)]
  refine Finset.sum_congr rfl fun c _ => ?_
  rw [tileDist_eq f g t x0 x1 x2 h0 h1 h2 p (Fin.castLE (by decide : 21 ≤ 128) c) c.2]
  rfl

/-- The tile's nearest other distance of a row is the row's nearest other distance. -/
theorem tileOther_eq
    (h0 : ∀ (p : Fin 2048) (k : Fin 512), x0 (ix2 p k) = f (ix2 (rowAt (2048 * t + p.val)) k))
    (h1 : ∀ (k : Fin 512) (q : Fin 128) (hq : q.val < 21), x1 (ix2 k q) = g (ix2 (⟨q.val, hq⟩ : Fin 21) k))
    (h2 : ∀ (q : Fin 128) (hq : q.val < 21), x2 (ix2 (0 : Fin 1) q) = gnorm g ⟨q.val, hq⟩)
    (h3 : ∀ p : Fin 2048, x3 (ix2 p (0 : Fin 1)) = lab (ix1 (rowAt (2048 * t + p.val))))
    (p : Fin 2048) :
    tileOther x0 x1 x2 x3 p = other f g lab (rowAt (2048 * t + p.val)) := by
  unfold tileOther other
  rw [h3 p, fold_min_pad _ fun q hq => ?_]
  · refine congrArg (Finset.fold min ⊤ · Finset.univ) (funext fun c => ?_)
    rw [tileDist_eq f g t x0 x1 x2 h0 h1 h2 p (Fin.castLE (by decide : 21 ≤ 128) c) c.2]
    rfl
  · have hd : tileDist x0 x1 x2 p q = ⊤ := by
      unfold tileDist; exact if_neg (by omega)
    rw [hd, ite_self]

end Tile

theorem tileLoss_eq (f : (⟨2, ![65536, 512]⟩ : Shape).Idx → EReal) (g : (⟨2, ![21, 512]⟩ : Shape).Idx → EReal) (lab : (⟨1, ![65536]⟩ : Shape).Idx → BitVec 32) (t : ℕ)
    (x0 : (⟨2, ![2048, 512]⟩ : Shape).Idx → EReal) (x1 : (⟨2, ![512, 128]⟩ : Shape).Idx → EReal) (x2 : (⟨2, ![1, 128]⟩ : Shape).Idx → EReal) (x3 : (⟨2, ![2048, 1]⟩ : Shape).Idx → BitVec 32)
    (h0 : ∀ (p : Fin 2048) (k : Fin 512), x0 (ix2 p k) = f (ix2 (rowAt (2048 * t + p.val)) k))
    (h1 : ∀ (k : Fin 512) (q : Fin 128) (hq : q.val < 21), x1 (ix2 k q) = g (ix2 (⟨q.val, hq⟩ : Fin 21) k))
    (h2 : ∀ (q : Fin 128) (hq : q.val < 21), x2 (ix2 (0 : Fin 1) q) = gnorm g ⟨q.val, hq⟩)
    (h3 : ∀ p : Fin 2048, x3 (ix2 p (0 : Fin 1)) = lab (ix1 (rowAt (2048 * t + p.val))))
    (hlab : ∀ r : Fin 65536, (lab (ix1 r)).toNat < 21) :
    tileLoss x0 x1 x2 x3 = tileSum f g lab t := by
  unfold tileLoss tileSum
  refine Finset.sum_congr rfl fun p _ => ?_
  rw [tileOwn_eq f g lab t x0 x1 x2 x3 h0 h1 h2 h3 hlab p, tileOther_eq f g lab t x0 x1 x2 x3 h0 h1 h2 h3 p]
  rfl

/-! ## The regrouping law -/

section Regroup

variable (f : (⟨2, ![65536, 512]⟩ : Shape).Idx → EReal) (g : (⟨2, ![21, 512]⟩ : Shape).Idx → EReal)
  (lab : (⟨1, ![65536]⟩ : Shape).Idx → BitVec 32)

/-- The pairs (tile, row in tile) number the 65536 rows: the pair (t, p) is row 2048 · t + p. -/
def tileEquiv : Fin 32 × Fin 2048 ≃ Fin 65536 :=
  finProdFinEquiv.trans (finCongr (by norm_num))

theorem tileEquiv_val (x : Fin 32 × Fin 2048) : (tileEquiv x).val = x.2.val + 2048 * x.1.val := rfl

/-- Row p of tile t is row 2048 · t + p; no reduction modulo the row count takes place. -/
theorem rowAt_tile (x : Fin 32 × Fin 2048) : rowAt (2048 * x.1.val + x.2.val) = tileEquiv x := by
  apply Fin.ext
  rw [tileEquiv_val]
  show (2048 * x.1.val + x.2.val) % 65536 = _
  rw [Nat.mod_eq_of_lt (by have := x.1.2; have := x.2.2; omega)]
  omega

/-- The 32 tile sums add up to the total. -/
theorem sum_tileSum : ∑ t ∈ Finset.range 32, tileSum f g lab t = total f g lab := by
  unfold total tileSum
  rw [Finset.sum_range (fun t => ∑ p : Fin 2048, rowLoss f g lab (rowAt (2048 * t + p.val))),
    ← Fintype.sum_prod_type' (fun (t : Fin 32) (p : Fin 2048) => rowLoss f g lab (rowAt (2048 * t.val + p.val)))]
  exact Fintype.sum_equiv tileEquiv _ _ fun x => congrArg (rowLoss f g lab) (rowAt_tile x)

/-- A row of the table sums to its column-0 entry. -/
theorem table_row (a : Fin 16) :
    ∑ b : Fin 128, table f g lab a b
      = if a.val % 8 = 0 then ∑ i ∈ Finset.range 16, tileSum f g lab (16 * (a.val / 8) + i) else 0 := by
  rw [Finset.sum_eq_single (0 : Fin 128)]
  · unfold table
    by_cases ha : a.val % 8 = 0
    · rw [if_pos ⟨ha, rfl⟩, if_pos ha]
    · rw [if_neg (fun h => ha h.1), if_neg ha]
  · intro b _ hb
    unfold table
    exact if_neg fun h => hb (Fin.ext h.2)
  · intro h; exact absurd (Finset.mem_univ _) h

end Regroup

theorem table_sum (f : (⟨2, ![65536, 512]⟩ : Shape).Idx → EReal) (g : (⟨2, ![21, 512]⟩ : Shape).Idx → EReal) (lab : (⟨1, ![65536]⟩ : Shape).Idx → BitVec 32) :
    (∑ a : Fin 16, ∑ b : Fin 128, table f g lab a b) = total f g lab := by
  rw [Finset.sum_congr rfl fun a _ => table_row f g lab a]
  refine (Finset.sum_eq_add (0 : Fin 16) (8 : Fin 16) (by decide) ?_ ?_ ?_).trans ?_
  · intro c _ hc
    refine if_neg fun h => ?_
    have h0 : c.val ≠ 0 := fun e => hc.1 (Fin.ext e)
    have h8 : c.val ≠ 8 := fun e => hc.2 (Fin.ext e)
    have := c.2
    omega
  · intro h; exact absurd (Finset.mem_univ _) h
  · intro h; exact absurd (Finset.mem_univ _) h
  · have e0 : ((0 : Fin 16).val) = 0 := rfl
    have e8 : ((8 : Fin 16).val) = 8 := rfl
    rw [e0, e8, if_pos (by decide), if_pos (by decide)]
    have hA : ∀ i, 16 * (0 / 8) + i = i := fun i => by omega
    have hB : ∀ i, 16 * (8 / 8) + i = 16 + i := fun i => by omega
    simp only [hA, hB]
    rw [← Finset.sum_range_add (fun i => tileSum f g lab i) 16 16]
    exact sum_tileSum f g lab

end Cert.CenterMargin

end
-- ==== Proof.KernelValue.lean ====
/-
  The kernel's result as a function of its arguments.

  With every label a class number, each grid point's tile loss is the sum of the row losses of its 2048 rows
  (the blocks it reads are the rows' features and labels, the centres and their norms); so the accumulator array
  ends as the table of the two half sums, the host's sum over the array is the total of the row losses, and the
  quotient by the row count is the mean.
-/
import proofs.«426648_j15917148799617_3_alg».proof.Proof.Accumulate
import proofs.«426648_j15917148799617_3_alg».proof.Proof.Blocks
import proofs.«426648_j15917148799617_3_alg».proof.Proof.Payload
import proofs.«426648_j15917148799617_3_alg».proof.Proof.TileLaw
import Idealize.ShloMosaic.Lib.StableHlo.Run
import Idealize.ShloMosaic.Lib.Pipeline.FrameSuffix

noncomputable section

open scoped BigOperators
open Idealize.ShloMosaic Idealize.ShloMosaic.TcCoe Idealize.SL.Sem
open Idealize.ShloMosaic.Pipeline (Dat)

namespace Cert.KernelIdeal.Acc

open Cert.KernelIdeal Cert.KernelIdeal.Gen Cert.CenterMargin Idealize.ShloMosaic.ValueIdx Idealize.ShloMosaic.StableHlo

variable (m : (ℓ : Loc nD τ sig) → Buf (Elt Ideal) ℓ) (ρ : Dev nD → PrngReg)

/-- The body's arithmetic read at an entry, and the reset block. -/
theorem bodyValue : BodyValue := ⟨Cert.KernelIdeal.Body.tile_update, Cert.KernelIdeal.Body.pay2_apply⟩

variable (hlab : ∀ (c : Dev nD) (r : Fin 65536), (labl m c (ix1 r)).toNat < 21)
include hlab

/-- A grid point's tile loss is the sum of its rows' losses. -/
theorem contrib_eq (c : Dev nD) (n : ℕ) (hn : n < 32) :
    contrib m c n = tileSum (feat m c) (cent m c) (labl m c) n := by
  have hN : n < cfg0.N := lt_of_lt_of_eq hn N_0.symm
  unfold contrib
  rw [dif_pos hN]
  exact tileLoss_eq (feat m c) (cent m c) (labl m c) n _ _ _ _
    (fun p k => featBlock_apply m c ⟨n, hN⟩ p k)
    (fun k q hq => centBlock_apply m c ⟨n, hN⟩ k q hq)
    (fun q hq => normBlock_apply m c ⟨n, hN⟩ q hq)
    (fun p => labelBlock_apply m c ⟨n, hN⟩ p)
    (hlab c)

/-- The accumulator array ends as the table of the two half sums. -/
theorem accTable_eq (c : Dev nD) (i : S16x128.Idx) :
    accTable m c i = table (feat m c) (cent m c) (labl m c) (i 0) (i 1) := by
  have hi0 : (i 0).val < 16 := (i 0).isLt
  unfold accTable table
  refine if_congr Iff.rfl (Finset.sum_congr rfl fun k hk => ?_) rfl
  have hk' : k < 16 := Finset.mem_range.mp hk
  exact contrib_eq m hlab c _ (by omega)

/-- The result buffer after the host's sum and quotient: the mean of the row losses. -/
theorem tail_value (c : Dev nD) :
    (Pipeline.afterTail₀ cfgs (dats m) 0 (V0 m) [hostOps1] c main_v10 : S_.Idx → EReal)
      = meanLoss (feat m c) (cent m c) (labl m c) := by
  unfold Pipeline.afterTail₀
  show StableHlo.after hostOps1 _ (Proc.devRef .tc main_v10) = _
  after_results
  have harr : Pipeline.withArrays (cfgs 0).spec c (V0 m c) (fun w => (dats m 0 c).arrAt w (cfgs 0).N)
      (Proc.tc.devRef main_v8) = accTable m c :=
    (Pipeline.withArrays_arr spec0 launch0.win.arr_inj c _ _ 4).trans (final m bodyValue c)
  rw [harr]
  unfold meanLoss
  refine congrArg (fun x => Host.divf (F := Ideal) x (constant (F := Ideal) S_ .f32 0x47800000#32)) (funext fun j => ?_)
  simp only [Host.reduceAdd, Ideal.hostReduceAdd_def]
  rw [Ideal.hostReduceAdd_total reducesTo_S16x128_S_d0_1 (fun b => b.elim0)]
  show Ideal.ofBits .f32 0x00000000#32 + _ = _
  refine congrArg (Ideal.ofBits .f32 0x00000000#32 + ·) ?_
  rw [← table_sum (feat m c) (cent m c) (labl m c)]
  refine (sum_idx2 (n0 := 16) (n1 := 128) (accTable m c)).trans ?_
  exact Finset.sum_congr rfl fun a _ => Finset.sum_congr rfl fun b _ => accTable_eq m hlab c (ix2 a b)

/-- THE RUN, READ: every weakly fair execution terminates with the result buffer at the mean of the row losses and the
    three argument arrays unchanged. -/
theorem run : θ_run defs (onTc (τ := τ) (main (F := Ideal))) ⟨m, fun _ => 0, ρ⟩ fun r => ∀ c : Dev nD,
      r.2.mem ((c.tc : Thread nD τ).loc main_v10) = meanLoss (feat m c) (cent m c) (labl m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_value m hlab c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.Reference.lean ====
import proofs.«426648_j15917148799617_3_alg».proof.Proof.Gen.ReferenceIdeal.Run
import proofs.«426648_j15917148799617_3_alg».proof.Proof.Gen.ReferenceIdeal.Read
import proofs.«426648_j15917148799617_3_alg».proof.Proof.Spec
import Idealize.ShloMosaic.Lib.ValueIdx
import Idealize.ShloMosaic.Lib.ValueIdxRank1
import Idealize.ShloMosaic.Lib.StableHlo.Predicate
import Idealize.ShloMosaic.PureOps.Ideal.Laws
import Idealize.ShloMosaic.PureOps.Reduce

/-!
  The value of the host program, read at the extended reals: operation by operation it is the mean hinge loss of
  `Cert.CenterMargin`. The distance table is the expanded halved squared distance; the minimum over the classes of
  the table with `+∞` written at the row's label is the nearest other distance; the point gather at (row, label)
  is the row's own distance, provided every label word is a class number (below 21), so that neither the wrap of
  negative positions nor the clamp of the gather moves it; the row losses are summed and divided by the row count.
-/

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.CenterMargin

/-! ## The distance table -/

/-- The squared norm of feature row `r`, as the reference sums it. -/
theorem fnorm_read (x0 : (⟨S65536x512, .f32⟩ : BufTy).Contents (Elt Ideal)) (r : Fin 65536) :
    val_main_v1 (F := Ideal) x0 (ix1 r) = fnorm x0 r := by
  rw [val_main_v1_apply]
  show Ideal.ofBits .f32 0x00000000#32 + _ = _
  rw [Ideal.ofBits_zero_f32, zero_add]
  unfold fnorm
  refine Finset.sum_congr rfl fun k _ => ?_
  have e : idx_main_v1 (ix1 r) k = ix2 r k :=
    funext fun a => Fin.ext (by match a with | ⟨0, _⟩ => rfl | ⟨1, _⟩ => rfl)
  rw [e]
  rfl

/-- The squared norm of centre `c`, as the reference sums it. -/
theorem gnorm_read (x1 : (⟨S21x512, .f32⟩ : BufTy).Contents (Elt Ideal)) (c : Fin 21) :
    val_main_v4 (F := Ideal) x1 (ix1 c) = gnorm x1 c := by
  rw [val_main_v4_apply]
  show Ideal.ofBits .f32 0x00000000#32 + _ = _
  rw [Ideal.ofBits_zero_f32, zero_add]
  unfold gnorm
  refine Finset.sum_congr rfl fun k _ => ?_
  have e : idx_main_v4 (ix1 c) k = ix2 c k :=
    funext fun a => Fin.ext (by match a with | ⟨0, _⟩ => rfl | ⟨1, _⟩ => rfl)
  rw [e]
  rfl

/-- The inner product of feature row `r` with centre `c`, as the reference contracts it. -/
theorem inner_read (x0 : (⟨S65536x512, .f32⟩ : BufTy).Contents (Elt Ideal))
    (x1 : (⟨S21x512, .f32⟩ : BufTy).Contents (Elt Ideal)) (r : Fin 65536) (c : Fin 21) :
    val_main_v10 (F := Ideal) x0 x1 (ix2 r c) = CenterMargin.inner x0 x1 r c := by
  rw [val_main_v10_apply]
  unfold CenterMargin.inner
  refine Finset.sum_congr rfl fun k _ => ?_
  rw [val_main_v9_apply]
  have el : lidx_main_v10 (ix2 r c) k = ix2 r k :=
    funext fun a => Fin.ext (by match a with | ⟨0, _⟩ => rfl | ⟨1, _⟩ => rfl)
  have er : idx_main_v9 (ridx_main_v10 (ix2 r c) k) = ix2 c k :=
    funext fun a => Fin.ext (by match a with | ⟨0, _⟩ => rfl | ⟨1, _⟩ => rfl)
  rw [el, er]

/-- The reference's distance table at row `r`, class `c`. -/
theorem dist_read (x0 : (⟨S65536x512, .f32⟩ : BufTy).Contents (Elt Ideal))
    (x1 : (⟨S21x512, .f32⟩ : BufTy).Contents (Elt Ideal)) (r : Fin 65536) (c : Fin 21) :
    val_main_v15 (F := Ideal) x0 x1 (ix2 r c) = dist x0 x1 r c := by
  rw [val_main_v15_apply, val_main_v14_apply, val_main_v13_apply, val_main_v12_apply, val_main_v11_apply,
    val_main_v8_apply, val_main_v6_apply, val_main_v7_apply, val_main_v2_apply, val_main_v5_apply, inner_read]
  have e1 : idx_main_v2 (idx_main_v6 (ix2 r c)) = ix1 r :=
    funext fun a => Fin.ext (by match a with | ⟨0, _⟩ => rfl)
  have e2 : idx_main_v5 (idx_main_v7 (ix2 r c)) = ix1 c :=
    funext fun a => Fin.ext (by match a with | ⟨0, _⟩ => rfl)
  rw [e1, e2, fnorm_read, gnorm_read]
  rfl

/-! ## The nearest other centre -/

/-- The masked distance table: `+∞` at the row's label, the distance elsewhere. -/
theorem masked_read (x0 : (⟨S65536x512, .f32⟩ : BufTy).Contents (Elt Ideal))
    (x1 : (⟨S21x512, .f32⟩ : BufTy).Contents (Elt Ideal)) (x2 : (⟨S65536, .i32⟩ : BufTy).Contents (Elt Ideal))
    (r : Fin 65536) (c : Fin 21) :
    val_main_v37 (F := Ideal) x0 x1 x2 (ix2 r c)
      = if isLabel x2 r c.val then (⊤ : EReal) else dist x0 x1 r c := by
  rw [val_main_v37_apply, val_main_v36_apply, val_main_v34_apply, val_main_v31_apply, val_main_v35_apply,
    val_main_v33_apply, val_main_v32_apply, dist_read]
  have e1 : idx_main_v31 (idx_main_v34 (ix2 r c)) = ix1 r :=
    funext fun a => Fin.ext (by match a with | ⟨0, _⟩ => rfl)
  rw [e1]
  show Scalar.select (IntOp.cmpi .eq (x2 (ix1 r)) (BitVec.ofNat 32 c.val)) _ _ = _
  by_cases h : x2 (ix1 r) = BitVec.ofNat 32 c.val
  · rw [Predicate.cmpi_eq_iff.mpr h, select_one, if_pos h, val_main_call0_v1_apply]
    show Ideal.ofBits .f32 0x7F800000#32 = ⊤
    simp [Ideal.ofBits, Ideal.ieee]
  · rw [eq_zero_of_ne_one (fun hc => h (Predicate.cmpi_eq_iff.mp hc)), select_zero, if_neg h]

/-- The row's index with class `c` put back on the reduced axis. -/
theorem lift_row (h : S65536x21.Reduces [1] S65536) (r : Fin 65536) (c : Fin 21) :
    h.lift (ix1 r) c = ix2 r c := by
  funext a; apply Fin.ext
  match a with
  | ⟨0, _⟩ => rfl
  | ⟨1, _⟩ => rfl

/-- The reference's minimum over the classes, at row `r`. -/
theorem other_read (x0 : (⟨S65536x512, .f32⟩ : BufTy).Contents (Elt Ideal))
    (x1 : (⟨S21x512, .f32⟩ : BufTy).Contents (Elt Ideal)) (x2 : (⟨S65536, .i32⟩ : BufTy).Contents (Elt Ideal))
    (r : Fin 65536) :
    val_main_v38 (F := Ideal) x0 x1 x2 (ix1 r) = other x0 x1 x2 r := by
  have h : S65536x21.Reduces [1] S65536 := by decide
  unfold val_main_v38
  rw [Host.reduce_eq_fold_single FloatOps.minimumf _ _ reducesTo_S65536x21_S65536_d1 h h_S_]
  unfold other
  have hf : (val_main_v37 (F := Ideal) x0 x1 x2 ∘ h.lift (ix1 r))
      = fun c : Fin 21 => if isLabel x2 r c.val then (⊤ : EReal) else dist x0 x1 r c :=
    funext fun c : Fin 21 =>
      (congrArg (val_main_v37 (F := Ideal) x0 x1 x2) (lift_row h r c)).trans (masked_read x0 x1 x2 r c)
  have hi : val_main_cst_7 (F := Ideal) (Shape.Idx.first h_S_) = (⊤ : EReal) := by
    show Ideal.ofBits .f32 0x7F800000#32 = ⊤
    simp [Ideal.ofBits, Ideal.ieee]
  rw [hi]
  exact congrArg (fun f => Finset.fold min (⊤ : EReal) f (Finset.univ : Finset (Fin 21))) hf

/-! ## The own centre -/

/-- A point gather of the [65536 × 21] table at a two-column array of positions reads, at row `r`, the table at
    the pair of positions the row names (read signed), when both are inside the table: the clamp is the identity. -/
theorem gather_point {α : Type} {w : Nat} (x : S65536x21.Idx → α) (idx : IVec S65536x2 w) (r p : Fin 65536) (q : Fin 21)
    (hp : (idx (ix2 r (0 : Fin 2))).toInt.toNat = p.val) (hq : (idx (ix2 r (1 : Fin 2))).toInt.toNat = q.val) :
    Host.gather gather_S65536x21_S65536x2_S65536_n_01_n_n_01_1_11 x idx (ix1 r) = x (ix2 p q) := by
  unfold Host.gather
  congr 1
  funext a
  refine Fin.ext ?_
  have hb : ∀ a : Fin S65536x21.rank, a ∉ gather_S65536x21_S65536x2_S65536_n_01_n_n_01_1_11.operandBatchingDims :=
    fun a => List.not_mem_nil
  have hk : ∀ a : Fin S65536x21.rank, a ∉ gather_S65536x21_S65536x2_S65536_n_01_n_n_01_1_11.sKept := fun a h =>
    ((GatherDims.mem_sKept _ _).mp h).1 (by
      show a ∈ [(0 : Fin 2), 1]
      match a with
      | ⟨0, _⟩ => exact List.mem_cons_self
      | ⟨1, _⟩ => exact List.mem_cons_of_mem _ List.mem_cons_self)
  show gather_S65536x21_S65536x2_S65536_n_01_n_n_01_1_11.start (ix1 r) idx a
      + gather_S65536x21_S65536x2_S65536_n_01_n_n_01_1_11.batchCoord (ix1 r) a
      + gather_S65536x21_S65536x2_S65536_n_01_n_n_01_1_11.offCoord (ix1 r) a = (ix2 p q a).val
  rw [GatherDims.batchCoord_eq_zero _ _ _ (hb a), GatherDims.offCoord_eq_zero _ _ _ (hk a)]
  simp only [Nat.add_zero]
  unfold GatherDims.start
  match a with
  | ⟨0, h0⟩ =>
    have hm : (⟨0, h0⟩ : Fin S65536x21.rank) ∈ gather_S65536x21_S65536x2_S65536_n_01_n_n_01_1_11.startIndexMap := by
      show (⟨0, h0⟩ : Fin 2) ∈ [(0 : Fin 2), 1]
      exact List.mem_cons_self
    rw [dif_pos hm]
    have hsi : gather_S65536x21_S65536x2_S65536_n_01_n_n_01_1_11.siIdx (ix1 r)
        ⟨List.idxOf (⟨0, h0⟩ : Fin S65536x21.rank) gather_S65536x21_S65536x2_S65536_n_01_n_n_01_1_11.startIndexMap,
          List.idxOf_lt_length_iff.2 hm⟩ = ix2 r (0 : Fin 2) := by
      funext b; refine Fin.ext ?_
      match b with
      | ⟨0, _⟩ => rfl
      | ⟨1, _⟩ => rfl
    rw [hsi, hp]
    show min p.val (65536 - 1) = p.val
    omega
  | ⟨1, h1⟩ =>
    have hm : (⟨1, h1⟩ : Fin S65536x21.rank) ∈ gather_S65536x21_S65536x2_S65536_n_01_n_n_01_1_11.startIndexMap := by
      show (⟨1, h1⟩ : Fin 2) ∈ [(0 : Fin 2), 1]
      exact List.mem_cons_of_mem _ List.mem_cons_self
    rw [dif_pos hm]
    have hsi : gather_S65536x21_S65536x2_S65536_n_01_n_n_01_1_11.siIdx (ix1 r)
        ⟨List.idxOf (⟨1, h1⟩ : Fin S65536x21.rank) gather_S65536x21_S65536x2_S65536_n_01_n_n_01_1_11.startIndexMap,
          List.idxOf_lt_length_iff.2 hm⟩ = ix2 r (1 : Fin 2) := by
      funext b; refine Fin.ext ?_
      match b with
      | ⟨0, _⟩ => rfl
      | ⟨1, _⟩ => rfl
    rw [hsi, hq]
    show min q.val (21 - 1) = q.val
    omega

/-- The position array's first column holds the row numbers: a row number is not negative, so the wrap of negative
    positions leaves it. -/
theorem index_row (x2 : (⟨S65536, .i32⟩ : BufTy).Contents (Elt Ideal)) (r : Fin 65536) :
    val_main_v29 (F := Ideal) x2 (ix2 r (0 : Fin 2)) = BitVec.ofNat 32 r.val := by
  unfold val_main_v29
  rw [concatenate_pair_apply_left (1 : Fin S65536x2.rank) _ _ concatenates_S65536x1_S65536x1_S65536x2_d1
    (ix2 r (0 : Fin 2)) rfl (ix2 r (0 : Fin 1)) (fun b => by match b with | ⟨0, _⟩ => rfl | ⟨1, _⟩ => rfl)]
  rw [val_main_v27_apply, val_main_v21_apply, val_main_v18_apply, val_main_v16_apply, val_main_v17_apply,
    val_main_c_apply]
  have e : idx_main_v27 (ix2 r (0 : Fin 1)) = ix1 r :=
    funext fun a => Fin.ext (by match a with | ⟨0, _⟩ => rfl)
  rw [e]
  show Scalar.select (IntOp.cmpi .slt (BitVec.ofNat 32 r.val) 0#32) _ (BitVec.ofNat 32 r.val) = _
  have hr := r.isLt
  have hn : IntOp.cmpi .slt (BitVec.ofNat 32 r.val) 0#32 = 0#1 :=
    eq_zero_of_ne_one fun hc => by
      have h := (Predicate.slt_iff_toNat (a := BitVec.ofNat 32 r.val) (b := 0#32)
        (by rw [BitVec.toNat_ofNat]; omega) (by decide)).mp hc
      exact Nat.not_lt_zero _ h
  rw [hn, select_zero]

/-- The position array's second column holds the labels: a label below the class count is not negative, so the
    wrap of negative positions leaves it. -/
theorem index_label (x2 : (⟨S65536, .i32⟩ : BufTy).Contents (Elt Ideal)) (r : Fin 65536)
    (h : (x2 (ix1 r)).toNat < 21) :
    val_main_v29 (F := Ideal) x2 (ix2 r (1 : Fin 2)) = x2 (ix1 r) := by
  unfold val_main_v29
  rw [concatenate_pair_apply_right (1 : Fin S65536x2.rank) _ _ concatenates_S65536x1_S65536x1_S65536x2_d1
    (ix2 r (1 : Fin 2)) rfl rfl (ix2 r (0 : Fin 1))
    (fun b hb => by
      match b, hb with
      | ⟨0, _⟩, _ => rfl
      | ⟨1, _⟩, hb => exact absurd (Fin.ext rfl) hb)
    rfl]
  rw [val_main_v28_apply, val_main_v26_apply, val_main_v23_apply, val_main_v22_apply, val_main_c_4_apply]
  have e : idx_main_v28 (ix2 r (0 : Fin 1)) = ix1 r :=
    funext fun a => Fin.ext (by match a with | ⟨0, _⟩ => rfl)
  rw [e]
  have hn : IntOp.cmpi .slt (x2 (ix1 r)) 0#32 = 0#1 :=
    eq_zero_of_ne_one fun hc => by
      have h' := (Predicate.slt_iff_toNat (a := x2 (ix1 r)) (b := 0#32) (by omega) (by decide)).mp hc
      exact Nat.not_lt_zero _ h'
  rw [hn, select_zero]

/-- The row's own distance, as the reference gathers it: the distance table at (row, label). -/
theorem own_read (x0 : (⟨S65536x512, .f32⟩ : BufTy).Contents (Elt Ideal))
    (x1 : (⟨S21x512, .f32⟩ : BufTy).Contents (Elt Ideal)) (x2 : (⟨S65536, .i32⟩ : BufTy).Contents (Elt Ideal))
    (r : Fin 65536) (h : (x2 (ix1 r)).toNat < 21) :
    val_main_v30 (F := Ideal) x0 x1 x2 (ix1 r) = own x0 x1 x2 r := by
  have hr := r.isLt
  unfold val_main_v30
  rw [gather_point (val_main_v15 (F := Ideal) x0 x1) (val_main_v29 (F := Ideal) x2) r r ⟨(x2 (ix1 r)).toNat, h⟩
    (by rw [index_row, Predicate.toInt_ofNat_small _ (by omega)]; exact Int.toNat_natCast _)
    (by rw [index_label x2 r h, Predicate.toInt_eq_toNat_of_lt (by omega)]; exact Int.toNat_natCast _),
    dist_read]
  unfold own
  rw [Finset.sum_eq_single (⟨(x2 (ix1 r)).toNat, h⟩ : Fin 21)]
  · rw [if_pos]
    show x2 (ix1 r) = BitVec.ofNat 32 (x2 (ix1 r)).toNat
    exact BitVec.eq_of_toNat_eq (by rw [BitVec.toNat_ofNat]; omega)
  · intro c _ hc
    rw [if_neg]
    intro hl
    apply hc
    apply Fin.ext
    show c.val = (x2 (ix1 r)).toNat
    have hc' := c.isLt
    have hl' : x2 (ix1 r) = BitVec.ofNat 32 c.val := hl
    rw [hl', BitVec.toNat_ofNat]
    omega
  · intro hn
    exact absurd (Finset.mem_univ _) hn

/-! ## The row losses and their mean -/

/-- The reference's hinge loss of row `r`. -/
theorem rowLoss_read (x0 : (⟨S65536x512, .f32⟩ : BufTy).Contents (Elt Ideal))
    (x1 : (⟨S21x512, .f32⟩ : BufTy).Contents (Elt Ideal)) (x2 : (⟨S65536, .i32⟩ : BufTy).Contents (Elt Ideal))
    (r : Fin 65536) (h : (x2 (ix1 r)).toNat < 21) :
    val_main_v42 (F := Ideal) x0 x1 x2 (ix1 r) = rowLoss x0 x1 x2 r := by
  rw [val_main_v42_apply, val_main_v41_apply, val_main_v40_apply, own_read x0 x1 x2 r h, other_read,
    val_main_v39_apply, val_main_call1_v0_apply]
  unfold rowLoss
  show max ((own x0 x1 x2 r + Ideal.ofBits .f32 0x40A00000#32) - other x0 x1 x2 r)
    (Ideal.ofBits .f32 0x00000000#32) = _
  rw [Ideal.ofBits_zero_f32]

/-- The reference computes the mean of the row losses, when every label is a class number. -/
theorem reference_value (x0 : (⟨S65536x512, .f32⟩ : BufTy).Contents (Elt Ideal))
    (x1 : (⟨S21x512, .f32⟩ : BufTy).Contents (Elt Ideal)) (x2 : (⟨S65536, .i32⟩ : BufTy).Contents (Elt Ideal))
    (hlab : ∀ r : Fin 65536, (x2 (Idealize.ShloMosaic.ValueIdx.ix1 r)).toNat < 21) :
    Cert.ReferenceIdeal.Read.val_main_v44 (F := Ideal) x0 x1 x2 = Cert.CenterMargin.meanLoss x0 x1 x2 := by
  have e : val_main_v43 (F := Ideal) x0 x1 x2
      = fun _ => Ideal.ofBits .f32 0x00000000#32 + total x0 x1 x2 := by
    funext i
    rw [val_main_v43_apply]
    show Ideal.ofBits .f32 0x00000000#32 + _ = Ideal.ofBits .f32 0x00000000#32 + _
    refine congrArg (Ideal.ofBits .f32 0x00000000#32 + ·) ?_
    unfold total
    rw [← Equiv.sum_comp (idxEquiv1 (n := 65536)).symm]
    exact Finset.sum_congr rfl fun r _ => rowLoss_read x0 x1 x2 r (hlab r)
  unfold val_main_v44 meanLoss
  rw [e]
  rfl

end Cert.ReferenceIdeal.RefValue

end
-- ==== Proof.LabelRange.lean ====
/-
  The precondition, read back: every label is a class number.

  The stated precondition ends in the conjunction, over all rows, of `0 ≤ label` and `label < 21` as signed
  32-bit comparisons. A word that is at least zero and below twenty-one as a signed number is below twenty-one as
  an unsigned one.
-/
import proofs.«426648_j15917148799617_3_alg».proof.Pre_finite_inputs
import Idealize.ShloMosaic.Lib.ReduceAll
import Idealize.ShloMosaic.Lib.ValueIdx

namespace Cert.CenterMargin

open Idealize.ShloMosaic Idealize.ShloMosaic.ValueIdx

instance : Subsingleton Cert.Pre_finite_inputs.S_.Idx := ⟨fun a b => funext fun d => d.elim0⟩

/-- A 32-bit word that is nonnegative and below 21 read signed is below 21 read unsigned. -/
theorem toNat_lt_of_signed (w : BitVec 32) (h0 : (0 : Int) ≤ w.toInt) (h1 : w.toInt < 21) : w.toNat < 21 := by
  have e := BitVec.toInt_eq_toNat_cond w
  have hw := w.isLt
  split_ifs at e <;> omega

theorem label_lt_of_pre [Cert.Pre_finite_inputs.Facts] {F : FTy → Type} [FloatOps F]
    (a0 : FVec F Cert.Pre_finite_inputs.S65536x512 .f32) (a1 : FVec F Cert.Pre_finite_inputs.S21x512 .f32)
    (a2 : IVec Cert.Pre_finite_inputs.S65536 32)
    (h : Cert.Pre_finite_inputs.fn (F := F) a0 a1 a2 = fun _ => 1#1) (r : Fin 65536) :
    (a2 (ix1 r)).toNat < 21 := by
  have h0 := congrFun h ix0
  dsimp only [Cert.Pre_finite_inputs.fn] at h0
  have h14 := (IntOp.andi_eq_one.mp h0).2
  have hr := Host.reduce_andi_all _ _ _ _ _ h14 (ix1 r)
  obtain ⟨hge, hlt⟩ := IntOp.andi_eq_one.mp hr
  have hge' : (0#32 : BitVec 32).toInt ≤ (a2 (ix1 r)).toInt := IntOp.cmpi_sge.mp hge
  have hlt' : (a2 (ix1 r)).toInt < (21#32 : BitVec 32).toInt := IntOp.cmpi_slt.mp hlt
  exact toNat_lt_of_signed _ (by simpa using hge') (by simpa using hlt')

end Cert.CenterMargin
-- ==== Proof.lean ====
/-
  A margin loss on distances to class centres: the kernel against its reference, over the extended reals.

  Both programs take 65536 feature rows, 21 class centres and one label per row, and return the mean over the rows of
  the hinge `max (d own + margin − d nearest other) 0`, where `d` is the halved squared distance in the expanded form
  `½ · ((‖f‖² + ‖c‖²) − 2 ⟨f, c⟩)`. The kernel works on tiles of 2048 rows and 128 padded class columns, takes a
  row's own distance as a sum over the columns equal to its label and its nearest other distance as a minimum with
  the own and the padding columns at `+∞` (its large finite stand-in is named `+∞`, as the reference has it), adds
  the tile sums into one entry of an accumulator block per half of the grid, and lets the host sum the blocks and
  divide. The reference gathers the own distance at the label and reduces the minimum over the 21 classes. The two
  agree when every label is a class number (the stated precondition): then the sum over the matching columns is
  the gathered entry, the padding columns are neutral for the minimum, and the total over the rows regroups into
  tiles and halves by commutativity and associativity alone — no finiteness is used.

  The three frames are the generated ones (the reference's is its generated run with the result dropped); the two
  idealization entries are the named constant's table value.
-/
import proofs.«426648_j15917148799617_3_alg».proof.Defs
import proofs.«426648_j15917148799617_3_alg».proof.Proof.Gen.Kernel
import proofs.«426648_j15917148799617_3_alg».proof.Proof.Gen.Kernel.Frame
import proofs.«426648_j15917148799617_3_alg».proof.Proof.Gen.KernelIdeal
import proofs.«426648_j15917148799617_3_alg».proof.Proof.Gen.KernelIdeal.Frame
import proofs.«426648_j15917148799617_3_alg».proof.Proof.Gen.ReferenceIdeal
import proofs.«426648_j15917148799617_3_alg».proof.Proof.Gen.ReferenceIdeal.Run
import proofs.«426648_j15917148799617_3_alg».proof.Proof.Gen.ReferenceIdeal.Read
import proofs.«426648_j15917148799617_3_alg».proof.Proof.Gen.Pre_finite_inputs
import proofs.«426648_j15917148799617_3_alg».proof.Proof.KernelValue
import proofs.«426648_j15917148799617_3_alg».proof.Proof.Reference
import proofs.«426648_j15917148799617_3_alg».proof.Proof.LabelRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two ledger entries: the table gives the named constant the value `+∞`. -/
theorem preserves : Cert.preserves_Kernel_KernelIdeal :=
  ⟨IdealRules.named_const.statement Cert.KernelIdeal.κ "pos_big" .f32 0x7149F2CA#32 ⊤ rfl,
   IdealRules.named_const.statement Cert.KernelIdeal.κ "pos_big" .f32 0x7149F2CA#32 ⊤ rfl⟩

/-- Under the precondition every label is a class number, so both programs end at the mean of the row losses of the
    same arguments. -/
theorem algebraic : Cert.algebraic_KernelIdeal_ReferenceIdeal := by
  intro m ρ m' ρ' hpre hagree
  have hlab : ∀ (c : Dev Cert.KernelIdeal.nD) (r : Fin 65536), (Cert.KernelIdeal.Acc.labl m c (ix1 r)).toNat < 21 :=
    fun c r => Cert.CenterMargin.label_lt_of_pre _ _ _ (hpre c) r
  refine ⟨fun c => Cert.CenterMargin.meanLoss (Cert.KernelIdeal.Acc.feat m c) (Cert.KernelIdeal.Acc.cent m c) (Cert.KernelIdeal.Acc.labl m c),
    Cert.KernelIdeal.Acc.run m ρ hlab, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v44_eq _ _ _).trans
    (Cert.ReferenceIdeal.RefValue.reference_value _ _ _ (hlab c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
